-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x16384 : Shape := ⟨2, ![2, 16384]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x16384 : S_.BroadcastsInDim S2x16384 (![] : Fin 0 → Fin S2x16384.rank)
  reducesTo_S2x16384_S_d0_1 : S2x16384.ReducesTo [0, 1] S_

variable [Facts]

def fn_part1 {F : FTy → Type} [FloatOps F] (main_arg4 : FVec F S1 .f32) (main_arg5 : IVec S2x16384 32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2x16384 32 := broadcastInDim S2x16384 ![] bcast_S_S2x16384 main_c_8
  let main_v25 : IVec S2x16384 1 := cmpi .sge main_arg5 main_v24
  let main_c_9 : IVec S_ 32 := constantI S_ 32 512#32
  let main_v26 : IVec S2x16384 32 := broadcastInDim S2x16384 ![] bcast_S_S2x16384 main_c_9
  let main_v27 : IVec S2x16384 1 := cmpi .slt main_arg5 main_v26
  let main_v28 : IVec S2x16384 1 := andi main_v25 main_v27
  let main_c_10 : IVec S_ 1 := constantI S_ 1 1#1
  let main_v29 : IVec S_ 1 := (fun x v => Host.reduce IntOp.andi x v reducesTo_S2x16384_S_d0_1 h_S_) main_v28 main_c_10
  let main_v30 : IVec S_ 1 := andi main_v23 main_v29
  main_v30

def fn {F : FTy → Type} [FloatOps F] (main_arg0 : FVec F S8x512x256 .f32) (main_arg1 : FVec F S512x256 .f32) (main_arg2 : FVec F S256 .f32) (main_arg3 : FVec F S256x1 .f32) (main_arg4 : FVec F S1 .f32) (main_arg5 : IVec S2x16384 32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_v13 main_v16
-- ==== Kernel.lean ====
abbrev S8x512x256 : Shape := ⟨3, ![8, 512, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x16384 : Shape := ⟨2, ![2, 16384]⟩
abbrev S1x16384 : Shape := ⟨2, ![1, 16384]⟩
abbrev S16384 : Shape := ⟨1, ![16384]⟩
abbrev S16384x1 : Shape := ⟨2, ![16384, 1]⟩
abbrev S16384x2 : Shape := ⟨2, ![16384, 2]⟩
abbrev S1x256 : Shape := ⟨2, ![1, 256]⟩
abbrev S1x1 : Shape := ⟨2, ![1, 1]⟩
abbrev S8x16384 : Shape := ⟨2, ![8, 16384]⟩
abbrev S2048x2 : Shape := ⟨2, ![2048, 2]⟩
abbrev S8x2048 : Shape := ⟨2, ![8, 2048]⟩
abbrev S2048x1 : Shape := ⟨2, ![2048, 1]⟩
abbrev S2048x512 : Shape := ⟨2, ![2048, 512]⟩
abbrev S1x512x256 : Shape := ⟨3, ![1, 512, 256]⟩
abbrev S2048x256 : Shape := ⟨2, ![2048, 256]⟩
abbrev S2048 : Shape := ⟨1, ![2048]⟩
abbrev S1x2048 : Shape := ⟨2, ![1, 2048]⟩
abbrev S_ : Shape := ⟨0, ![]⟩
abbrev S8x512x512 : Shape := ⟨3, ![8, 512, 512]⟩

abbrev nBuf : Space → Nat
  | .hbm => 37
  | .vmem => 9
  | .smem => 0
  | _ => 0

abbrev bufTy : (tb : Table) → Fin (tcTables nBuf tb) → BufTy
  | .hbm, ⟨0, _⟩ => ⟨S8x512x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S2x16384, .i32⟩
  | .hbm, ⟨6, _⟩ => ⟨S1x16384, .i32⟩
  | .hbm, ⟨7, _⟩ => ⟨S16384, .i32⟩
  | .hbm, ⟨8, _⟩ => ⟨S1x16384, .i32⟩
  | .hbm, ⟨9, _⟩ => ⟨S16384, .i32⟩
  | .hbm, ⟨10, _⟩ => ⟨S16384x1, .i32⟩
  | .hbm, ⟨11, _⟩ => ⟨S16384x1, .i32⟩
  | .hbm, ⟨12, _⟩ => ⟨S16384x2, .i32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S8x16384, .f32⟩
  | .hbm, ⟨17, _⟩ => ⟨S_, .f32⟩
  | .hbm, ⟨18, _⟩ => ⟨S8x512x512, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1, .i32⟩
  | .hbm, ⟨35, _⟩ => ⟨S16384x2, .i32⟩
  | .hbm, ⟨36, _⟩ => ⟨S8x512x512, .f32⟩
  | .local _ .vmem, ⟨0, _⟩ => ⟨S2048x2, .i32⟩
  | .local _ .vmem, ⟨1, _⟩ => ⟨S2048x2, .i32⟩
  | .local _ .vmem, ⟨2, _⟩ => ⟨S8x512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S1x1, .f32⟩
  | .local _ .vmem, ⟨7, _⟩ => ⟨S8x2048, .f32⟩
  | .local _ .vmem, ⟨8, _⟩ => ⟨S8x2048, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S16384_S16384x1_0 : S16384.BroadcastsInDim S16384x1 (![0] : Fin 1 → Fin S16384x1.rank)
  concatenates_S16384x1_S16384x1_S16384x2_d1 : Shape.Concatenates [S16384x1, S16384x1] S16384x2 1
  shapeCasts_S256_S1x256 : S256.ShapeCasts S1x256
  shapeCasts_S256x1_S1x256 : S256x1.ShapeCasts S1x256
  shapeCasts_S1_S1x1 : S1.ShapeCasts S1x1
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  slices_S2048x2_o0_0_S2048x1 : S2048x2.Slices ![0, 0] S2048x1
  slices_S2048x2_o0_1_S2048x1 : S2048x2.Slices ![0, 1] S2048x1
  iota_S2048x512_d1_w32 : S2048x512.Iotas .tc 32 [1]
  shapeCasts_S2048x1_S2048x1 : S2048x1.ShapeCasts S2048x1
  broadcasts_S2048x1_S2048x512 : S2048x1.Broadcasts S2048x512
  natLt_1_32 : 1 < 32
  bitsLt_bf16_f32 : FTy.bits .bf16 < FTy.bits .f32
  inb_S8x512x256_S8x512x256_0_0_0 : ∀ a, (![0, 0, 0] : Fin 3 → Nat) a + S8x512x256.size a ≤ S8x512x256.size a
  h_S8x512x256 : 0 < S8x512x256.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S8x512x256_o0_0_0_S1x512x256 : S8x512x256.Slices ![0, 0, 0] S1x512x256
  shapeCasts_S1x512x256_S512x256 : S1x512x256.ShapeCasts S512x256
  concatenates_S2048x256_S2048x256_S2048x512_d1 : Shape.Concatenates [S2048x256, S2048x256] S2048x512 1
  broadcasts_S1x256_S2048x256 : S1x256.Broadcasts S2048x256
  reduces_S2048x256_S2048 : S2048x256.Reduces [1] S2048
  shapeCasts_S2048_S2048x1 : S2048.ShapeCasts S2048x1
  broadcasts_S1x1_S2048x1 : S1x1.Broadcasts S2048x1
  shapeCasts_S2048x1_S2048 : S2048x1.ShapeCasts S2048
  inb_S8x2048_S1x2048_0_0 : ∀ a, (![0, 0] : Fin 2 → Nat) a + S1x2048.size a ≤ S8x2048.size a
  h_S1x2048 : 0 < S1x2048.numel
  shapeCasts_S1x2048_S2048 : S1x2048.ShapeCasts S2048
  shapeCasts_S2048_S1x2048 : S2048.ShapeCasts S1x2048
  slices_S8x512x256_o1_0_0_S1x512x256 : S8x512x256.Slices ![1, 0, 0] S1x512x256
  inb_S8x2048_S1x2048_1_0 : ∀ a, (![1, 0] : Fin 2 → Nat) a + S1x2048.size a ≤ S8x2048.size a
  slices_S8x512x256_o2_0_0_S1x512x256 : S8x512x256.Slices ![2, 0, 0] S1x512x256
  inb_S8x2048_S1x2048_2_0 : ∀ a, (![2, 0] : Fin 2 → Nat) a + S1x2048.size a ≤ S8x2048.size a
  slices_S8x512x256_o3_0_0_S1x512x256 : S8x512x256.Slices ![3, 0, 0] S1x512x256
  inb_S8x2048_S1x2048_3_0 : ∀ a, (![3, 0] : Fin 2 → Nat) a + S1x2048.size a ≤ S8x2048.size a
  slices_S8x512x256_o4_0_0_S1x512x256 : S8x512x256.Slices ![4, 0, 0] S1x512x256
  inb_S8x2048_S1x2048_4_0 : ∀ a, (![4, 0] : Fin 2 → Nat) a + S1x2048.size a ≤ S8x2048.size a
  slices_S8x512x256_o5_0_0_S1x512x256 : S8x512x256.Slices ![5, 0, 0] S1x512x256
  inb_S8x2048_S1x2048_5_0 : ∀ a, (![5, 0] : Fin 2 → Nat) a + S1x2048.size a ≤ S8x2048.size a
  slices_S8x512x256_o6_0_0_S1x512x256 : S8x512x256.Slices ![6, 0, 0] S1x512x256
  inb_S8x2048_S1x2048_6_0 : ∀ a, (![6, 0] : Fin 2 → Nat) a + S1x2048.size a ≤ S8x2048.size a
  slices_S8x512x256_o7_0_0_S1x512x256 : S8x512x256.Slices ![7, 0, 0] S1x512x256
  inb_S8x2048_S1x2048_7_0 : ∀ a, (![7, 0] : Fin 2 → Nat) a + S1x2048.size a ≤ S8x2048.size a
  bcast_S_S8x512x512 : S_.BroadcastsInDim S8x512x512 (![] : Fin 0 → Fin S8x512x512.rank)
  bcast_S_S16384 : S_.BroadcastsInDim S16384 (![] : Fin 0 → Fin S16384.rank)
  dot_S2048x512_S512x256_S2048x256_1_0_0_1_n_n_wf : DotDims.WF S2048x512 S512x256 S2048x256 [1] [0] [0] [1] [] []
  scatter_S8x512x512_S16384x2_S8x16384_0_12_12_1_wf : ScatterDims.WF S8x512x512 S16384x2 S8x16384 [0] [1, 2] [1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S16384x2.size a
  hwx0_0 : ∀ i : grid0.Coords, EltTy.bits .i32 = 32 ∨ (Rect.block (s := S16384x2) S2048x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S8x512x256.size a
  hwx0_1 : ∀ i : grid0.Coords, EltTy.bits .f32 = 32 ∨ (Rect.block (s := S8x512x256) S8x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x2048.size a ≤ S8x16384.size a
  hwx0_6 : ∀ i : grid0.Coords, EltTy.bits .f32 = 32 ∨ (Rect.block (s := S8x16384) S8x2048.size (cc0_transform_6 i) (hinb0_6 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def scatter_S8x512x512_S16384x2_S8x16384_0_12_12_1 : ScatterDims S8x512x512 S16384x2 S8x16384 where
  updateWindowDims := [0]
  insertedWindowDims := [1, 2]
  scatterDimsToOperandDims := [1, 2]
  indexVectorDim := 1
  wf := scatter_S8x512x512_S16384x2_S8x16384_0_12_12_1_wf

abbrev win0_0 : Pipeline.Window sig grid0 :=
  Pipeline.Window.ofSpec (Memref.whole main_v6) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S8x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x256 : Shape := ⟨3, ![8, 512, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x16384 : Shape := ⟨2, ![2, 16384]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S8x16384x256 : Shape := ⟨3, ![8, 16384, 256]⟩
abbrev S8x16384x512 : Shape := ⟨3, ![8, 16384, 512]⟩
abbrev S1x1x256 : Shape := ⟨3, ![1, 1, 256]⟩
abbrev S8x16384x1 : Shape := ⟨3, ![8, 16384, 1]⟩
abbrev S1x1x1 : Shape := ⟨3, ![1, 1, 1]⟩
abbrev S8x16384 : Shape := ⟨2, ![8, 16384]⟩
abbrev S8x512x512 : Shape := ⟨3, ![8, 512, 512]⟩
abbrev S16384x2 : Shape := ⟨2, ![16384, 2]⟩

abbrev nBuf : Space → Nat
  | .hbm => 69
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S2x16384, .i32⟩
  | .hbm, ⟨6, _⟩ => ⟨S1x16384, .i32⟩
  | .hbm, ⟨7, _⟩ => ⟨S16384, .i32⟩
  | .hbm, ⟨8, _⟩ => ⟨S1x16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S8x16384x256, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S8x16384x256, .f32⟩
  | .hbm, ⟨28, _⟩ => ⟨S8x16384x512, .f32⟩
  | .hbm, ⟨29, _⟩ => ⟨S8x16384x256, .f32⟩
  | .hbm, ⟨30, _⟩ => ⟨S1x1x256, .f32⟩
  | .hbm, ⟨31, _⟩ => ⟨S8x16384x256, .f32⟩
  | .hbm, ⟨32, _⟩ => ⟨S8x16384x256, .f32⟩
  | .hbm, ⟨33, _⟩ => ⟨S_, .f32⟩
  | .hbm, ⟨34, _⟩ => ⟨S8x16384x256, .f32⟩
  | .hbm, ⟨35, _⟩ => ⟨S8x16384x256, .f32⟩
  | .hbm, ⟨36, _⟩ => ⟨S8x16384x1, .f32⟩
  | .hbm, ⟨37, _⟩ => ⟨S1x1x1, .f32⟩
  | .hbm, ⟨38, _⟩ => ⟨S8x16384x1, .f32⟩
  | .hbm, ⟨39, _⟩ => ⟨S8x16384x1, .f32⟩
  | .hbm, ⟨40, _⟩ => ⟨S8x16384x1, .f32⟩
  | .hbm, ⟨41, _⟩ => ⟨S8x16384x1, .f32⟩
  | .hbm, ⟨42, _⟩ => ⟨S_, .f32⟩
  | .hbm, ⟨43, _⟩ => ⟨S8x16384x1, .f32⟩
  | .hbm, ⟨44, _⟩ => ⟨S8x16384x1, .f32⟩
  | .hbm, ⟨45, _⟩ => ⟨S_, .f32⟩
  | .hbm, ⟨46, _⟩ => ⟨S8x16384x1, .f32⟩
  | .hbm, ⟨47, _⟩ => ⟨S8x16384x1, .f32⟩
  | .hbm, ⟨48, _⟩ => ⟨S8x16384, .f32⟩
  | .hbm, ⟨49, _⟩ => ⟨S_, .f32⟩
  | .hbm, ⟨50, _⟩ => ⟨S8x512x512, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384x1, .i32⟩
  | .hbm, ⟨67, _⟩ => ⟨S16384x2, .i32⟩
  | .hbm, ⟨68, _⟩ => ⟨S8x512x512, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S16384 : S_.BroadcastsInDim S16384 (![] : Fin 0 → Fin S16384.rank)
  bcast_S16384_S16384x1_0 : S16384.BroadcastsInDim S16384x1 (![0] : Fin 1 → Fin S16384x1.rank)
  concatenates_S8x16384x256_S8x16384x256_S8x16384x512_d2 : Shape.Concatenates [S8x16384x256, S8x16384x256] S8x16384x512 2
  bcast_S256_S1x1x256_2 : S256.BroadcastsInDim S1x1x256 (![2] : Fin 1 → Fin S1x1x256.rank)
  bcast_S1x1x256_S8x16384x256_0_1_2 : S1x1x256.BroadcastsInDim S8x16384x256 (![0, 1, 2] : Fin 3 → Fin S8x16384x256.rank)
  bcast_S_S8x16384x256 : S_.BroadcastsInDim S8x16384x256 (![] : Fin 0 → Fin S8x16384x256.rank)
  bcast_S1_S1x1x1_2 : S1.BroadcastsInDim S1x1x1 (![2] : Fin 1 → Fin S1x1x1.rank)
  bcast_S1x1x1_S8x16384x1_0_1_2 : S1x1x1.BroadcastsInDim S8x16384x1 (![0, 1, 2] : Fin 3 → Fin S8x16384x1.rank)
  bcast_S_S8x16384x1 : S_.BroadcastsInDim S8x16384x1 (![] : Fin 0 → Fin S8x16384x1.rank)
  shapeCasts_S8x16384x1_S8x16384 : S8x16384x1.ShapeCasts S8x16384
  bcast_S_S8x512x512 : S_.BroadcastsInDim S8x512x512 (![] : Fin 0 → Fin S8x512x512.rank)
  concatenates_S16384x1_S16384x1_S16384x2_d1 : Shape.Concatenates [S16384x1, S16384x1] S16384x2 1
  gather_S8x512x256_S16384x1_S8x16384x256_02_1_n_n_1_1_81256_wf : GatherDims.WF S8x512x256 S16384x1 S8x16384x256 [0, 2] [1] [] [1] [] 1 ![8, 1, 256]
  dot_S8x16384x512_S512x256_S8x16384x256_2_0_01_1_n_n_wf : DotDims.WF S8x16384x512 S512x256 S8x16384x256 [2] [0] [0, 1] [1] [] []
  dot_S8x16384x256_S256x1_S8x16384x1_2_0_01_1_n_n_wf : DotDims.WF S8x16384x256 S256x1 S8x16384x1 [2] [0] [0, 1] [1] [] []
  scatter_S8x512x512_S16384x2_S8x16384_0_12_12_1_wf : ScatterDims.WF S8x512x512 S16384x2 S8x16384 [0] [1, 2] [1, 2] 1

variable [Facts₀]

def gather_S8x512x256_S16384x1_S8x16384x256_02_1_n_n_1_1_81256 : GatherDims S8x512x256 S16384x1 S8x16384x256 where
  offsetDims := [0, 2]
  collapsedSliceDims := [1]
  operandBatchingDims := []
  startIndicesBatchingDims := []
  startIndexMap := [1]
  indexVectorDim := 1
  sliceSizes := ![8, 1, 256]
  wf := gather_S8x512x256_S16384x1_S8x16384x256_02_1_n_n_1_1_81256_wf
def dot_S8x16384x512_S512x256_S8x16384x256_2_0_01_1_n_n : DotDims S8x16384x512 S512x256 S8x16384x256 where
  lhsContracting := [2]
  rhsContracting := [0]
  lhsNonContracting := [0, 1]
  rhsNonContracting := [1]
  lhsBatch := []
  rhsBatch := []
  wf := dot_S8x16384x512_S512x256_S8x16384x256_2_0_01_1_n_n_wf
def dot_S8x16384x256_S256x1_S8x16384x1_2_0_01_1_n_n : DotDims S8x16384x256 S256x1 S8x16384x1 where
  lhsContracting := [2]
  rhsContracting := [0]
  lhsNonContracting := [0, 1]
  rhsNonContracting := [1]
  lhsBatch := []
  rhsBatch := []
  wf := dot_S8x16384x256_S256x1_S8x16384x1_2_0_01_1_n_n_wf
def scatter_S8x512x512_S16384x2_S8x16384_0_12_12_1 : ScatterDims S8x512x512 S16384x2 S8x16384 where
  updateWindowDims := [0]
  insertedWindowDims := [1, 2]
  scatterDimsToOperandDims := [1, 2]
  indexVectorDim := 1
  wf := scatter_S8x512x512_S16384x2_S8x16384_0_12_12_1_wf

class Facts : Prop extends Facts₀ where

variable [Facts]
-- ==== Proof.Spec.lean ====
/-
  The edge score, as one function of the argument arrays.

  For a batch entry `b` and an edge `e` with endpoint words `s = edge_index[0, e]` and `d = edge_index[1, e]`, the pair row is
  the feature row of node `s` followed by the feature row of node `d` (512 numbers); the hidden activation is
  `max (pair · W1[:, h] + b1[h], 0)`, the logit is `hidden · W2[:, 0] + b2[0]`, and the score is its logistic.
  A word names the node obtained by reading it as a signed integer and clamping into `[0, 511]`; for a word already in
  that range this is the word itself.
-/
import Idealize.ShloMosaic.PureOps.Ideal.Laws
import Idealize.ShloMosaic.Lib.ValueIdx

noncomputable section

open scoped BigOperators

namespace Cert.EdgeScore

open Idealize.ShloMosaic Idealize.ShloMosaic.ValueIdx

/-- The node a 32-bit index word names: its signed value clamped into `[0, 511]`. -/
def node (w : BitVec 32) : Fin 512 := ⟨min w.toInt.toNat (512 - 1), by omega⟩

/-- A word in `[0, 512)` names the node of its own value. -/
theorem node_val_of_range {w : BitVec 32} (h0 : 0 ≤ w.toInt) (h1 : w.toInt < 512) : ((node w).val : ℤ) = w.toInt := by
  unfold node
  show ((min w.toInt.toNat (512 - 1) : ℕ) : ℤ) = w.toInt
  omega

/-- Entry `f` of the pair row of edge `e` in batch entry `b`: the source node's features, then the destination node's. -/
def pairAt (feat : (⟨3, ![8, 512, 256]⟩ : Shape).Idx → EReal) (ei : IVec ⟨2, ![2, 16384]⟩ 32) (b : Fin 8) (e : Fin 16384)
    (f : Fin 512) : EReal :=
  if h : f.val < 256 then feat (ix3 b (node (ei (ix2 (0 : Fin 2) e))) (⟨f.val, h⟩ : Fin 256))
  else feat (ix3 b (node (ei (ix2 (1 : Fin 2) e))) (⟨f.val - 256, by omega⟩ : Fin 256))

/-- Hidden unit `h` of edge `e` in batch entry `b`: the rectified affine image of the pair row. -/
def hidden (feat : (⟨3, ![8, 512, 256]⟩ : Shape).Idx → EReal) (W1 : (⟨2, ![512, 256]⟩ : Shape).Idx → EReal)
    (b1 : (⟨1, ![256]⟩ : Shape).Idx → EReal) (ei : IVec ⟨2, ![2, 16384]⟩ 32) (b : Fin 8) (e : Fin 16384) (h : Fin 256) : EReal :=
  max ((∑ f : Fin 512, pairAt feat ei b e f * W1 (ix2 f h)) + b1 (ix1 h)) (Ideal.ofBits .f32 0x00000000#32)

/-- The logit of edge `e` in batch entry `b`. -/
def logit (feat : (⟨3, ![8, 512, 256]⟩ : Shape).Idx → EReal) (W1 : (⟨2, ![512, 256]⟩ : Shape).Idx → EReal)
    (b1 : (⟨1, ![256]⟩ : Shape).Idx → EReal) (W2 : (⟨2, ![256, 1]⟩ : Shape).Idx → EReal) (b2 : (⟨1, ![1]⟩ : Shape).Idx → EReal)
    (ei : IVec ⟨2, ![2, 16384]⟩ 32) (b : Fin 8) (e : Fin 16384) : EReal :=
  (∑ h : Fin 256, hidden feat W1 b1 ei b e h * W2 (ix2 h (0 : Fin 1))) + b2 (ix1 (0 : Fin 1))

/-- The score array `[8, 16384]`: the logistic of each logit. -/
def score (feat : (⟨3, ![8, 512, 256]⟩ : Shape).Idx → EReal) (W1 : (⟨2, ![512, 256]⟩ : Shape).Idx → EReal)
    (b1 : (⟨1, ![256]⟩ : Shape).Idx → EReal) (W2 : (⟨2, ![256, 1]⟩ : Shape).Idx → EReal) (b2 : (⟨1, ![1]⟩ : Shape).Idx → EReal)
    (ei : IVec ⟨2, ![2, 16384]⟩ 32) : (⟨2, ![8, 16384]⟩ : Shape).Idx → EReal :=
  fun j => Ideal.logistic (logit feat W1 b1 W2 b2 ei (⟨(j 0).val, idx2_lt0 j⟩ : Fin 8) (⟨(j 1).val, idx2_lt1 j⟩ : Fin 16384))

/-- The score at coordinates. -/
theorem score_ix2 (feat : (⟨3, ![8, 512, 256]⟩ : Shape).Idx → EReal) (W1 : (⟨2, ![512, 256]⟩ : Shape).Idx → EReal)
    (b1 : (⟨1, ![256]⟩ : Shape).Idx → EReal) (W2 : (⟨2, ![256, 1]⟩ : Shape).Idx → EReal) (b2 : (⟨1, ![1]⟩ : Shape).Idx → EReal)
    (ei : IVec ⟨2, ![2, 16384]⟩ 32) (b : Fin 8) (e : Fin 16384) :
    score feat W1 b1 W2 b2 ei (ix2 b e) = Ideal.logistic (logit feat W1 b1 W2 b2 ei b e) := rfl

/-- Every index word of the edge array lies in `[0, 512)`. -/
def InRange (ei : IVec ⟨2, ![2, 16384]⟩ 32) : Prop := ∀ i, 0 ≤ (ei i).toInt ∧ (ei i).toInt < 512

end Cert.EdgeScore

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.KernelRow.lean ====
/-
  One row of the kernel's output block, at the extended reals.

  The body computes the same thing for each of the eight batch entries `b`: from the two one-hot matrices of the tile's
  endpoint words (2048 edges by 512 nodes), the batch entry's feature matrix, the two weight matrices and the biases, it forms
  the 2048 logits and stores their logistic as row `b` of the block. `rowLogit` and `finish` spell that computation once, with
  the batch entry a parameter; every payload of the body is one of them at a literal batch entry.
-/
import proofs.«429026_j72756745994823_1_alg».proof.Proof.Gen.KernelIdeal.Skeleton
import proofs.«429026_j72756745994823_1_alg».proof.Proof.Spec
import proofs.«429026_j72756745994823_1_alg».proof.Proof.LibPlainDot
import proofs.«429026_j72756745994823_1_alg».proof.Proof.LibRowReduce
import Idealize.ShloMosaic.Lib.Pipeline.Value
import Idealize.ShloMosaic.Lib.ValueLayout
import Idealize.ShloMosaic.Lib.StableHlo.Predicate

noncomputable section

open scoped BigOperators

namespace Cert.KernelIdeal.Row

open Idealize.ShloMosaic Idealize.ShloMosaic.ValueIdx Cert.KernelIdeal Cert.KernelIdeal.Gen

variable {F : FTy → Type} [FloatOps F]

/-- The 2048 pre-bias logits of batch entry `b`: gather both endpoints' feature rows by the one-hot products, join them,
    apply the first layer with its bias and the rectifier, weight by the second layer's row and sum along it. -/
def rowLogit (b : ℕ) (hs : S8x512x256.Slices ![b, 0, 0] S1x512x256) (v10 v16 : FVec F S2048x512 .bf16) (v18 : FVec F S8x512x256 .bf16)
    (v20 : FVec F S512x256 .bf16) (v22 v24 : FVec F S1x256 .f32) : FVec F S2048 .f32 :=
  multiReduction .add [1] S2048
    (mulf (maximumf (addf (matmul dot_S2048x512_S512x256_S2048x256_1_0_0_1_n_n none
        (truncf .bf16 (concatenate S2048x512 1
          [⟨S2048x256, matmul dot_S2048x512_S512x256_S2048x256_1_0_0_1_n_n none v10
              (shapeCast S512x256 (extractStridedSlice S1x512x256 ![b, 0, 0] v18 hs) shapeCasts_S1x512x256_S512x256)
              (constant S2048x256 .f32 0x00000000#32)⟩,
           ⟨S2048x256, matmul dot_S2048x512_S512x256_S2048x256_1_0_0_1_n_n none v16
              (shapeCast S512x256 (extractStridedSlice S1x512x256 ![b, 0, 0] v18 hs) shapeCasts_S1x512x256_S512x256)
              (constant S2048x256 .f32 0x00000000#32)⟩]
          concatenates_S2048x256_S2048x256_S2048x512_d1) bitsLt_bf16_f32)
        v20 (constant S2048x256 .f32 0x00000000#32))
      (broadcastTo S2048x256 v22 broadcasts_S1x256_S2048x256))
      (broadcast S2048x256 (Scalar.ofBits .f32 0x00000000#32)))
      (broadcastTo S2048x256 v24 broadcasts_S1x256_S2048x256))
    0x00000000#32 reduces_S2048x256_S2048 (.inl rfl) rfl

/-- The stored row: the second bias added, the logistic taken, laid out as one row of 2048. -/
def finish (v26 : FVec F S1x1 .f32) (v40 : FVec F S2048 .f32) : FVec F S1x2048 .f32 :=
  shapeCast S1x2048 (shapeCast S2048 (logistic (addf (shapeCast S2048x1 v40 shapeCasts_S2048_S2048x1)
    (broadcastTo S2048x1 v26 broadcasts_S1x1_S2048x1))) shapeCasts_S2048x1_S2048) shapeCasts_S2048_S1x2048

/-! ## The body's payloads are these two, at the literal batch entries -/

theorem pay12_eq (v26 : FVec F S1x1 .f32) (v : FVec F S2048 .f32) : k0_pay12 v26 v = finish v26 v := rfl
theorem pay15_eq (v26 : FVec F S1x1 .f32) (v : FVec F S2048 .f32) : k0_pay15 v26 v = finish v26 v := rfl
theorem pay18_eq (v26 : FVec F S1x1 .f32) (v : FVec F S2048 .f32) : k0_pay18 v26 v = finish v26 v := rfl
theorem pay1_eq (v26 : FVec F S1x1 .f32) (v : FVec F S2048 .f32) : k0_pay1 v26 v = finish v26 v := rfl

theorem pay11_eq (x0 : Vec F S2048x2 .i32) (x1 : Vec F S8x512x256 .f32) (x2 : Vec F S512x256 .f32) (x3 x4 : Vec F S1x256 .f32) :
    k0_pay11 x0 x1 x2 x3 x4 = rowLogit 0 slices_S8x512x256_o0_0_0_S1x512x256 (k0_pay4 x0) (k0_pay5 x0) (k0_pay6 x1) (k0_pay7 x2) (k0_pay8 x3) (k0_pay9 x4) := rfl
theorem pay13_eq (v10 v16 : FVec F S2048x512 .bf16) (v18 : FVec F S8x512x256 .bf16) (v20 : FVec F S512x256 .bf16) (v22 v24 : FVec F S1x256 .f32) (v26 : FVec F S1x1 .f32) :
    k0_pay13 v10 v16 v18 v20 v22 v24 v26 = finish v26 (rowLogit 1 slices_S8x512x256_o1_0_0_S1x512x256 v10 v16 v18 v20 v22 v24) := rfl
theorem pay14_eq (v10 v16 : FVec F S2048x512 .bf16) (v18 : FVec F S8x512x256 .bf16) (v20 : FVec F S512x256 .bf16) (v22 v24 : FVec F S1x256 .f32) :
    k0_pay14 v10 v16 v18 v20 v22 v24 = rowLogit 2 slices_S8x512x256_o2_0_0_S1x512x256 v10 v16 v18 v20 v22 v24 := rfl
theorem pay16_eq (v10 v16 : FVec F S2048x512 .bf16) (v18 : FVec F S8x512x256 .bf16) (v20 : FVec F S512x256 .bf16) (v22 v24 : FVec F S1x256 .f32) (v26 : FVec F S1x1 .f32) :
    k0_pay16 v10 v16 v18 v20 v22 v24 v26 = finish v26 (rowLogit 3 slices_S8x512x256_o3_0_0_S1x512x256 v10 v16 v18 v20 v22 v24) := rfl
theorem pay17_eq (v10 v16 : FVec F S2048x512 .bf16) (v18 : FVec F S8x512x256 .bf16) (v20 : FVec F S512x256 .bf16) (v22 v24 : FVec F S1x256 .f32) :
    k0_pay17 v10 v16 v18 v20 v22 v24 = rowLogit 4 slices_S8x512x256_o4_0_0_S1x512x256 v10 v16 v18 v20 v22 v24 := rfl
theorem pay19_eq (v10 v16 : FVec F S2048x512 .bf16) (v18 : FVec F S8x512x256 .bf16) (v20 : FVec F S512x256 .bf16) (v22 v24 : FVec F S1x256 .f32) (v26 : FVec F S1x1 .f32) :
    k0_pay19 v10 v16 v18 v20 v22 v24 v26 = finish v26 (rowLogit 5 slices_S8x512x256_o5_0_0_S1x512x256 v10 v16 v18 v20 v22 v24) := rfl
theorem pay20_eq (v10 v16 : FVec F S2048x512 .bf16) (v18 : FVec F S8x512x256 .bf16) (v20 : FVec F S512x256 .bf16) (v22 v24 : FVec F S1x256 .f32) :
    k0_pay20 v10 v16 v18 v20 v22 v24 = rowLogit 6 slices_S8x512x256_o6_0_0_S1x512x256 v10 v16 v18 v20 v22 v24 := rfl
theorem pay2_eq (v10 v16 : FVec F S2048x512 .bf16) (v18 : FVec F S8x512x256 .bf16) (v20 : FVec F S512x256 .bf16) (v22 v24 : FVec F S1x256 .f32) (v26 : FVec F S1x1 .f32) :
    k0_pay2 v10 v16 v18 v20 v22 v24 v26 = finish v26 (rowLogit 7 slices_S8x512x256_o7_0_0_S1x512x256 v10 v16 v18 v20 v22 v24) := rfl

/-! ## Reading the pieces at coordinates -/

section Layout
variable {α : Type}

/-- Batch entry `b`'s feature matrix, cut out of the feature array: entry `(n, f)` is the array's `(b, n, f)`. -/
theorem slab_apply (b : Fin 8) (hs : S8x512x256.Slices ![b.val, 0, 0] S1x512x256) (v18 : S8x512x256.Idx → α) (n : Fin 512) (f : Fin 256) :
    shapeCast S512x256 (extractStridedSlice S1x512x256 ![b.val, 0, 0] v18 hs) shapeCasts_S1x512x256_S512x256 (ix2 n f) = v18 (ix3 b n f) := by
  rw [shapeCast_1ab_ab_apply]
  exact extractStridedSlice_apply _ v18 hs _ (ix3 b n f) (fun a => match a with
    | ⟨0, _⟩ => by show b.val = b.val + 0; omega
    | ⟨1, _⟩ => by show n.val = 0 + n.val; omega
    | ⟨2, _⟩ => by show f.val = 0 + f.val; omega)

/-- Two `[2048, 256]` matrices joined side by side: column `f` comes from the first when `f < 256`, else from the second. -/
theorem joined_apply (A B : S2048x256.Idx → α) (r : Fin 2048) (f : Fin 512) :
    concatenate S2048x512 1 [⟨S2048x256, A⟩, ⟨S2048x256, B⟩] concatenates_S2048x256_S2048x256_S2048x512_d1 (ix2 r f)
      = if h : f.val < 256 then A (ix2 r (⟨f.val, h⟩ : Fin 256)) else B (ix2 r (⟨f.val - 256, by omega⟩ : Fin 256)) := by
  split
  · next h =>
    exact concatenate_pair_apply_left _ A B _ (ix2 r f) rfl (ix2 r (⟨f.val, h⟩ : Fin 256)) (fun c => match c with
      | ⟨0, _⟩ => rfl
      | ⟨1, _⟩ => rfl)
  · next h =>
    refine concatenate_pair_apply_right _ A B _ (ix2 r f) rfl rfl (ix2 r (⟨f.val - 256, by omega⟩ : Fin 256)) (fun c hc => ?_) ?_
    · match c with
      | ⟨0, _⟩ => rfl
      | ⟨1, _⟩ => exact absurd rfl hc
    · show f.val - 256 + 256 = f.val
      omega

/-- A column `[a, 1]` flattened to `[a]` reads the column's row. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-! ## The one-hot matrices -/

section OneHot

open Cert.EdgeScore (node)

/-- A word in `[0, 512)` equals the word of `n < 512` exactly when `n` is the node it names. -/
theorem ofNat_eq_iff {w : BitVec 32} (h0 : 0 ≤ w.toInt) (h1 : w.toInt < 512) (n : Fin 512) :
    BitVec.ofNat 32 n.val = w ↔ n = node w := by
  have hc := BitVec.toInt_eq_toNat_cond w
  have hn := n.isLt
  have hnode : (node w).val = w.toNat := by
    show min w.toInt.toNat (512 - 1) = w.toNat
    split at hc <;> omega
  constructor
  · intro h
    apply Fin.ext
    rw [hnode, ← h, BitVec.toNat_ofNat]
    omega
  · intro h
    apply BitVec.eq_of_toNat_eq
    rw [BitVec.toNat_ofNat, h, hnode]
    have := w.isLt
    omega

/-- The word of a one-bit comparison, widened and read as a signed number, is 1 or 0. -/
theorem indicator_word (a b : BitVec 32) :
    (FloatOps.sitofp (F := Ideal) .f32 ((IntOp.cmpi .eq a b).setWidth 32) : EReal) = if a = b then 1 else 0 := by
  by_cases h : a = b
  · rw [if_pos h, Idealize.ShloMosaic.StableHlo.Predicate.cmpi_eq_iff.2 h]
    show (((1#1 : BitVec 1).setWidth 32).toInt : ℝ) = (1 : EReal)
    norm_num
  · rw [if_neg h]
    have hz : IntOp.cmpi .eq a b = 0#1 :=
      eq_zero_of_ne_one (fun h1 => h (Idealize.ShloMosaic.StableHlo.Predicate.cmpi_eq_iff.1 h1))
    rw [hz]
    show (((0#1 : BitVec 1).setWidth 32).toInt : ℝ) = (0 : EReal)
    norm_num

/-- Entry `(r, n)` of the one-hot matrix built from column `c` of the tile's endpoint words: 1 when node `n` is the
    endpoint of edge `r`, else 0. -/
theorem onehot_apply (c : ℕ) (hc : c < 2) (hs : S2048x2.Slices ![0, c] S2048x1) (x0 : S2048x2.Idx → BitVec 32) (r : Fin 2048) (n : Fin 512) :
    (truncf .bf16 (sitofp .f32 (extui 32 (cmpi .eq (iota .tc S2048x512 32 [1] iota_S2048x512_d1_w32)
      (broadcastTo S2048x512 (shapeCast S2048x1 (extractStridedSlice S2048x1 ![0, c] x0 hs) shapeCasts_S2048x1_S2048x1)
        broadcasts_S2048x1_S2048x512)) natLt_1_32)) bitsLt_bf16_f32 : FVec Ideal S2048x512 .bf16) (ix2 r n)
      = if BitVec.ofNat 32 n.val = x0 (ix2 r (⟨c, hc⟩ : Fin 2)) then 1 else 0 := by
  rw [truncf_apply, sitofp_apply, extui_apply]
  show (FloatOps.sitofp (F := Ideal) .f32 ((IntOp.cmpi .eq (iota .tc S2048x512 32 [1] iota_S2048x512_d1_w32 (ix2 r n))
    (broadcastTo S2048x512 (shapeCast S2048x1 (extractStridedSlice S2048x1 ![0, c] x0 hs) shapeCasts_S2048x1_S2048x1)
        broadcasts_S2048x1_S2048x512 (ix2 r n))).setWidth 32) : EReal) = _
  rw [indicator_word, iota_single_apply, Cert.RowReduce.broadcastTo_a1_ab_apply, shapeCast_self,
    extractStridedSlice_apply _ x0 hs _ (ix2 r (⟨c, hc⟩ : Fin 2)) (fun a => match a with
      | ⟨0, _⟩ => by show r.val = 0 + r.val; omega
      | ⟨1, _⟩ => by show c = c + 0; omega)]

theorem onehot_src_apply (x0 : Vec Ideal S2048x2 .i32) (r : Fin 2048) (n : Fin 512) :
    k0_pay4 (F := Ideal) x0 (ix2 r n) = if BitVec.ofNat 32 n.val = x0 (ix2 r (0 : Fin 2)) then 1 else 0 := by
  unfold k0_pay4 k0_pay3
  dsimp only
  rw [shapeCast_self x0]
  exact onehot_apply 0 (by omega) slices_S2048x2_o0_0_S2048x1 x0 r n

theorem onehot_dst_apply (x0 : Vec Ideal S2048x2 .i32) (r : Fin 2048) (n : Fin 512) :
    k0_pay5 (F := Ideal) x0 (ix2 r n) = if BitVec.ofNat 32 n.val = x0 (ix2 r (1 : Fin 2)) then 1 else 0 := by
  unfold k0_pay5 k0_pay3
  dsimp only
  rw [shapeCast_self x0]
  exact onehot_apply 1 (by omega) slices_S2048x2_o0_1_S2048x1 x0 r n

/-- A one-hot row times a column picks the entry at the node the word names. -/
theorem onehot_sum {w : BitVec 32} (h0 : 0 ≤ w.toInt) (h1 : w.toInt < 512) (g : Fin 512 → EReal) :
    ∑ n : Fin 512, (if BitVec.ofNat 32 n.val = w then (1 : EReal) else 0) * g n = g (node w) := by
  rw [Finset.sum_eq_single (node w)]
  · rw [if_pos ((ofNat_eq_iff h0 h1 _).2 rfl), one_mul]
  · intro n _ hn
    rw [if_neg (fun h => hn ((ofNat_eq_iff h0 h1 n).1 h)), zero_mul]
  · intro h; exact absurd (Finset.mem_univ _) h

end OneHot

/-! ## The row, at the extended reals -/

section AtIdeal

open Cert.EdgeScore (node InRange)

/-- The body's matrix products are plain ones: `[2048, 512]` by `[512, 256]`. -/
theorem plain : Cert.Lib.PlainDot dot_S2048x512_S512x256_S2048x256_1_0_0_1_n_n := ⟨rfl, rfl, rfl, rfl, rfl, rfl⟩

/-- A `[2048, 512]` matrix times batch entry `b`'s features, at `(r, f)`: the sum over the nodes. -/
theorem gathered_apply (b : Fin 8) (hs : S8x512x256.Slices ![b.val, 0, 0] S1x512x256) (v : FVec Ideal S2048x512 .bf16)
    (v18 : FVec Ideal S8x512x256 .bf16) (r : Fin 2048) (f : Fin 256) :
    matmul dot_S2048x512_S512x256_S2048x256_1_0_0_1_n_n none v
        (shapeCast S512x256 (extractStridedSlice S1x512x256 ![b.val, 0, 0] v18 hs) shapeCasts_S1x512x256_S512x256)
        (constant S2048x256 .f32 0x00000000#32) (ix2 r f)
      = ∑ n : Fin 512, v (ix2 r n) * v18 (ix3 b n f) := by
  refine (plain.matmul_zero_apply none v _ r f).trans ?_
  exact Finset.sum_congr rfl fun n _ => by rw [slab_apply]

/-- The first layer's product at `(r, h)`: the sum over the 512 pair-row entries. -/
theorem layer_apply (X : FVec Ideal S2048x512 .bf16) (v20 : FVec Ideal S512x256 .bf16) (r : Fin 2048) (h : Fin 256) :
    matmul dot_S2048x512_S512x256_S2048x256_1_0_0_1_n_n none X v20 (constant S2048x256 .f32 0x00000000#32) (ix2 r h)
      = ∑ f : Fin 512, X (ix2 r f) * v20 (ix2 f h) :=
  plain.matmul_zero_apply none X v20 r h

/-- Entry `f` of edge `r`'s pair row as the body forms it: a one-hot row against a feature column. -/
def pairOf (b : Fin 8) (v10 v16 : FVec Ideal S2048x512 .bf16) (v18 : FVec Ideal S8x512x256 .bf16) (r : Fin 2048) (f : Fin 512) : EReal :=
  if h : f.val < 256 then ∑ n : Fin 512, v10 (ix2 r n) * v18 (ix3 b n (⟨f.val, h⟩ : Fin 256))
  else ∑ n : Fin 512, v16 (ix2 r n) * v18 (ix3 b n (⟨f.val - 256, by omega⟩ : Fin 256))

/-- The pre-bias logit of edge `r`: the sum over the hidden units of the rectified first layer times the second layer's row. -/
theorem rowLogit_apply (b : Fin 8) (hs : S8x512x256.Slices ![b.val, 0, 0] S1x512x256) (v10 v16 : FVec Ideal S2048x512 .bf16)
    (v18 : FVec Ideal S8x512x256 .bf16) (v20 : FVec Ideal S512x256 .bf16) (v22 v24 : FVec Ideal S1x256 .f32) (r : Fin 2048) :
    rowLogit (F := Ideal) b.val hs v10 v16 v18 v20 v22 v24 (ix1 r)
      = ∑ h : Fin 256, max ((∑ f : Fin 512, pairOf b v10 v16 v18 r f * v20 (ix2 f h)) + v22 (ix2 (0 : Fin 1) h))
          (Ideal.ofBits .f32 0x00000000#32) * v24 (ix2 (0 : Fin 1) h) := by
  unfold rowLogit
  refine (Cert.RowReduce.rowSum_apply _ _ _ _ _ r).trans ?_
  refine Finset.sum_congr rfl fun h _ => ?_
  rw [mulf_apply, maximumf_apply, addf_apply, broadcastTo_1b_ab_apply, broadcastTo_1b_ab_apply, broadcast_apply,
    layer_apply]
  have hpair : ∀ f : Fin 512, (truncf .bf16 (concatenate S2048x512 1
          [⟨S2048x256, matmul dot_S2048x512_S512x256_S2048x256_1_0_0_1_n_n none v10
              (shapeCast S512x256 (extractStridedSlice S1x512x256 ![b.val, 0, 0] v18 hs) shapeCasts_S1x512x256_S512x256)
              (constant S2048x256 .f32 0x00000000#32)⟩,
           ⟨S2048x256, matmul dot_S2048x512_S512x256_S2048x256_1_0_0_1_n_n none v16
              (shapeCast S512x256 (extractStridedSlice S1x512x256 ![b.val, 0, 0] v18 hs) shapeCasts_S1x512x256_S512x256)
              (constant S2048x256 .f32 0x00000000#32)⟩]
          concatenates_S2048x256_S2048x256_S2048x512_d1) bitsLt_bf16_f32 : FVec Ideal S2048x512 .bf16) (ix2 r f)
        = pairOf b v10 v16 v18 r f := by
    intro f
    rw [truncf_apply, joined_apply]
    unfold pairOf
    split
    · rw [gathered_apply]
    · rw [gathered_apply]
  rw [Finset.sum_congr rfl (fun f _ => congrArg (· * v20 (ix2 f h)) (hpair f))]
  rfl

/-- The stored row at edge `r`: the logistic of the logit. -/
theorem finish_apply (v26 : FVec Ideal S1x1 .f32) (v40 : FVec Ideal S2048 .f32) (r : Fin 2048) :
    finish v26 v40 (ix2 (0 : Fin 1) r) = Ideal.logistic (v40 (ix1 r) + v26 (ix2 (0 : Fin 1) (0 : Fin 1))) := by
  unfold finish
  rw [shapeCast_a_1a_apply, shapeCast_a1_a_apply]
  show FloatOps.logistic (addf (shapeCast S2048x1 v40 shapeCasts_S2048_S2048x1) (broadcastTo S2048x1 v26 broadcasts_S1x1_S2048x1)
    (ix2 r (0 : Fin 1))) = _
  rw [addf_apply, Cert.RowReduce.shapeCast_a_a1_apply, broadcastTo_1b_ab_apply]
  rfl

/-- ROW `b` OF THE BLOCK IS THE SCORE. The tile's endpoint words are those of the edges `e` it covers (`he`), every word
    in `[0, 512)`; the bias and second-layer rows are the argument vectors laid out as rows. Each one-hot product then picks
    the feature row of the node its word names, and what is left is the score's formula term for term. -/
theorem row_score (b : Fin 8) (hs : S8x512x256.Slices ![b.val, 0, 0] S1x512x256)
    (x0 : Vec Ideal S2048x2 .i32) (x1 : Vec Ideal S8x512x256 .f32) (x2 : Vec Ideal S512x256 .f32) (x3 x4 : Vec Ideal S1x256 .f32)
    (x5 : Vec Ideal S1x1 .f32)
    (b1 : (⟨1, ![256]⟩ : Shape).Idx → EReal) (W2 : (⟨2, ![256, 1]⟩ : Shape).Idx → EReal) (b2 : (⟨1, ![1]⟩ : Shape).Idx → EReal)
    (ei : IVec ⟨2, ![2, 16384]⟩ 32) (hr : InRange ei) (r : Fin 2048) (e : Fin 16384)
    (he : ∀ c : Fin 2, x0 (ix2 r c) = ei (ix2 c e))
    (hb1 : ∀ h : Fin 256, x3 (ix2 (0 : Fin 1) h) = b1 (ix1 h)) (hW2 : ∀ h : Fin 256, x4 (ix2 (0 : Fin 1) h) = W2 (ix2 h (0 : Fin 1)))
    (hb2 : x5 (ix2 (0 : Fin 1) (0 : Fin 1)) = b2 (ix1 (0 : Fin 1))) :
    finish (k0_pay10 x5) (rowLogit b.val hs (k0_pay4 x0) (k0_pay5 x0) (k0_pay6 x1) (k0_pay7 x2) (k0_pay8 x3) (k0_pay9 x4))
        (ix2 (0 : Fin 1) r)
      = Cert.EdgeScore.score x1 x2 b1 W2 b2 ei (ix2 b e) := by
  rw [finish_apply, rowLogit_apply, Cert.EdgeScore.score_ix2]
  unfold k0_pay10 k0_pay8 k0_pay9
  try dsimp only
  rw [shapeCast_self x5, shapeCast_self x3, shapeCast_self x4, hb2]
  unfold Cert.EdgeScore.logit
  congr 2
  refine Finset.sum_congr rfl fun h _ => ?_
  rw [hb1, hW2]
  unfold Cert.EdgeScore.hidden
  congr 3
  refine Finset.sum_congr rfl fun f _ => ?_
  congr 1
  unfold pairOf Cert.EdgeScore.pairAt
  split
  · rw [Finset.sum_congr rfl (fun n _ => congrArg (· * _) (onehot_src_apply x0 r n)), he 0]
    exact onehot_sum (hr _).1 (hr _).2 (fun n => x1 (ix3 b n _))
  · rw [Finset.sum_congr rfl (fun n _ => congrArg (· * _) (onehot_dst_apply x0 r n)), he 1]
    exact onehot_sum (hr _).1 (hr _).2 (fun n => x1 (ix3 b n _))

end AtIdeal

end Cert.KernelIdeal.Row

end
-- ==== Proof.KernelHost.lean ====
/-
  What the region finds in the arrays the host wrote before it, read at coordinates.

  The endpoint array `[16384, 2]` holds edge `e`'s source word in column 0 and its destination word in column 1 (the two rows
  of the edge array, each laid out as a column, joined side by side); the first bias and the second layer's weights are
  laid out as rows `[1, 256]`, the second bias as `[1, 1]`.
-/
import proofs.«429026_j72756745994823_1_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.Host

open Idealize.ShloMosaic Idealize.ShloMosaic.TcCoe Idealize.ShloMosaic.ValueIdx Idealize.ShloMosaic.StableHlo Idealize.SL.Sem
open Cert.KernelIdeal Cert.KernelIdeal.Gen

variable {F : FTy → Type} [FloatOps F]
variable (m : (ℓ : Loc nD τ sig) → Buf (Elt F) ℓ)

/-- The endpoint array as the host's operations of the edge array. -/
theorem V_v6 (c : Dev nD) : (V m c main_v6 : S16384x2.Idx → BitVec 32)
    = concatenate S16384x2 1
        [⟨S16384x1, broadcastInDim S16384x1 ![0] bcast_S16384_S16384x1_0
            (shapeCast S16384 (extractStridedSlice S1x16384 ![0, 0] (m ((c : Thread nD τ).loc main_arg5)) slices_S2x16384_S1x16384_0_0) shapeCasts_S1x16384_S16384)⟩,
         ⟨S16384x1, broadcastInDim S16384x1 ![0] bcast_S16384_S16384x1_0
            (shapeCast S16384 (extractStridedSlice S1x16384 ![1, 0] (m ((c : Thread nD τ).loc main_arg5)) slices_S2x16384_S1x16384_1_0) shapeCasts_S1x16384_S16384)⟩]
        concatenates_S16384x1_S16384x1_S16384x2_d1 := by
  show StableHlo.after hostOps0 (fun b => m (c, b)) (Proc.devRef .tc main_v6) = _
  after_results
  rfl

theorem V_v7 (c : Dev nD) : (V m c main_v7 : S1x256.Idx → Elt F .f32)
    = shapeCast S1x256 (m ((c : Thread nD τ).loc main_arg2)) shapeCasts_S256_S1x256 := by
  show StableHlo.after hostOps0 (fun b => m (c, b)) (Proc.devRef .tc main_v7) = _
  after_results
  rfl

theorem V_v8 (c : Dev nD) : (V m c main_v8 : S1x256.Idx → Elt F .f32)
    = shapeCast S1x256 (m ((c : Thread nD τ).loc main_arg3)) shapeCasts_S256x1_S1x256 := by
  show StableHlo.after hostOps0 (fun b => m (c, b)) (Proc.devRef .tc main_v8) = _
  after_results
  rfl

theorem V_v9 (c : Dev nD) : (V m c main_v9 : S1x1.Idx → Elt F .f32)
    = shapeCast S1x1 (m ((c : Thread nD τ).loc main_arg4)) shapeCasts_S1_S1x1 := by
  show StableHlo.after hostOps0 (fun b => m (c, b)) (Proc.devRef .tc main_v9) = _
  after_results
  rfl

/-! ## At coordinates -/

/-- Column `k` of the endpoint array at edge `e` is the edge array's entry `(k, e)`. -/
theorem V_v6_apply (c : Dev nD) (e : Fin 16384) (k : Fin 2) :
    V m c main_v6 (ix2 e k) = m ((c : Thread nD τ).loc main_arg5) (ix2 k e) := by
  rw [V_v6]
  match k with
  | ⟨0, _⟩ =>
    rw [concatenate_pair_apply_left (s₁ := S16384x1) (s₂ := S16384x1) (1 : Fin S16384x2.rank) _ _ _ (ix2 e (⟨0, by omega⟩ : Fin 2)) rfl
      (ix2 e (0 : Fin 1)) (fun a => match a with | ⟨0, _⟩ => rfl | ⟨1, _⟩ => rfl)]
    rw [broadcastInDim_apply _ bcast_S16384_S16384x1_0 _ (ix2 e (0 : Fin 1)) (ix1 e) (fun a => match a with
      | ⟨0, _⟩ => by show e.val = if (16384 : Nat) = 1 then 0 else e.val; rw [if_neg (by decide)])]
    rw [shapeCast_1a_a_apply]
    exact extractStridedSlice_apply _ _ slices_S2x16384_S1x16384_0_0 _ (ix2 (⟨0, by omega⟩ : Fin 2) e) (fun a => match a with
      | ⟨0, _⟩ => by show 0 = 0 + 0; omega
      | ⟨1, _⟩ => by show e.val = 0 + e.val; omega)
  | ⟨1, _⟩ =>
    rw [concatenate_pair_apply_right (s₁ := S16384x1) (s₂ := S16384x1) (1 : Fin S16384x2.rank) _ _ _ (ix2 e (⟨1, by omega⟩ : Fin 2)) rfl rfl
      (ix2 e (0 : Fin 1)) (fun a => match a with
        | ⟨0, _⟩ => fun _ => rfl
        | ⟨1, _⟩ => fun hne => absurd rfl hne)
      (by show 0 + 1 = 1; omega)]
    rw [broadcastInDim_apply _ bcast_S16384_S16384x1_0 _ (ix2 e (0 : Fin 1)) (ix1 e) (fun a => match a with
      | ⟨0, _⟩ => by show e.val = if (16384 : Nat) = 1 then 0 else e.val; rw [if_neg (by decide)])]
    rw [shapeCast_1a_a_apply]
    exact extractStridedSlice_apply _ _ slices_S2x16384_S1x16384_1_0 _ (ix2 (⟨1, by omega⟩ : Fin 2) e) (fun a => match a with
      | ⟨0, _⟩ => by show 1 = 1 + 0; omega
      | ⟨1, _⟩ => by show e.val = 0 + e.val; omega)

/-- The first bias, as a row. -/
theorem V_v7_apply (c : Dev nD) (h : Fin 256) :
    V m c main_v7 (ix2 (0 : Fin 1) h) = m ((c : Thread nD τ).loc main_arg2) (ix1 h) := by
  rw [V_v7, shapeCast_a_1a_apply]

/-- The second layer's weights, as a row. -/
theorem V_v8_apply (c : Dev nD) (h : Fin 256) :
    V m c main_v8 (ix2 (0 : Fin 1) h) = m ((c : Thread nD τ).loc main_arg3) (ix2 h (0 : Fin 1)) := by
  rw [V_v8]
  exact shapeCast_apply _ shapeCasts_S256x1_S1x256 _ _ (by
    rw [Shape.rowMajor_val_two, Shape.rowMajor_val_two]
    show h.val * 1 + 0 = 0 * 256 + h.val
    omega)

/-- The second bias, as a one-by-one array. -/
theorem V_v9_apply (c : Dev nD) :
    V m c main_v9 (ix2 (0 : Fin 1) (0 : Fin 1)) = m ((c : Thread nD τ).loc main_arg4) (ix1 (0 : Fin 1)) := by
  rw [V_v9, shapeCast_a_1a_apply]

end Cert.KernelIdeal.Host

end
-- ==== Proof.KernelBlock.lean ====
/-
  The kernel's output array after the run is the score array.

  Point `t` of the grid covers edges `t·2048 … t·2048 + 2047`: it reads rows `t·2048 …` of the endpoint array and the other
  operands whole, and writes columns `t·2048 …` of all eight rows of the output. Row `b` of what it writes is the score of
  batch entry `b` at those edges; the eight points' column ranges tile the output.
-/
import proofs.«429026_j72756745994823_1_alg».proof.Proof.Gen.KernelIdeal.Frame
import proofs.«429026_j72756745994823_1_alg».proof.Proof.KernelRow
import proofs.«429026_j72756745994823_1_alg».proof.Proof.KernelHost
import Idealize.ShloMosaic.Lib.Pipeline.Value

set_option maxRecDepth 16384

noncomputable section

open scoped BigOperators

namespace Cert.KernelIdeal.Block

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Row Cert.KernelIdeal.Host
open Cert.EdgeScore (InRange)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the endpoint array's block index is `(t, 0)`, the output's `(0, t)`, every other
    window's zero. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val ∧ t.val < 8 :=
  (by decide +kernel : ∀ t : Fin grid0.N, _)

/-! ## The input blocks at point `t` -/

theorem iblk0_apply (c : Dev nD) (t : Fin cfg0.N) (r : Fin 2048) (k : Fin 2) (e : Fin 16384) (he : e.val = t.val * 2048 + r.val) :
    iblk m c 0 t (ix2 r k) = V m c main_v6 (ix2 e k) := by
  obtain ⟨e0, e1, -⟩ := idx_facts t
  show V m c main_v6 (((cfg0.win 0).blk t).view.emb (ix2 r k)) = _
  congr 1
  funext a; apply Fin.ext
  match a with
  | ⟨0, _⟩ => show win0_0.index t (0 : Fin 2) * 2048 + 1 * r.val = e.val; omega
  | ⟨1, _⟩ => show win0_0.index t (1 : Fin 2) * 2 + 1 * k.val = k.val; omega

theorem iblk1_eq (c : Dev nD) (t : Fin cfg0.N) : iblk m c 1 t = V m c main_arg0 := by
  obtain ⟨-, -, e0, e1, e2, -⟩ := idx_facts t
  funext j
  show V m c main_arg0 (((cfg0.win 1).blk t).view.emb j) = _
  congr 1
  funext a; apply Fin.ext
  match a with
  | ⟨0, _⟩ => show win0_1.index t (0 : Fin 3) * 8 + 1 * (j 0).val = (j 0).val; omega
  | ⟨1, _⟩ => show win0_1.index t (1 : Fin 3) * 512 + 1 * (j 1).val = (j 1).val; omega
  | ⟨2, _⟩ => show win0_1.index t (2 : Fin 3) * 256 + 1 * (j 2).val = (j 2).val; omega

theorem iblk2_eq (c : Dev nD) (t : Fin cfg0.N) : iblk m c 2 t = V m c main_arg1 := by
  obtain ⟨-, -, -, -, -, e0, e1, -⟩ := idx_facts t
  funext j
  show V m c main_arg1 (((cfg0.win 2).blk t).view.emb j) = _
  congr 1
  funext a; apply Fin.ext
  match a with
  | ⟨0, _⟩ => show win0_2.index t (0 : Fin 2) * 512 + 1 * (j 0).val = (j 0).val; omega
  | ⟨1, _⟩ => show win0_2.index t (1 : Fin 2) * 256 + 1 * (j 1).val = (j 1).val; omega

theorem iblk3_eq (c : Dev nD) (t : Fin cfg0.N) : iblk m c 3 t = V m c main_v7 := by
  obtain ⟨-, -, -, -, -, -, -, e0, e1, -⟩ := idx_facts t
  funext j
  show V m c main_v7 (((cfg0.win 3).blk t).view.emb j) = _
  congr 1
  funext a; apply Fin.ext
  match a with
  | ⟨0, _⟩ => show win0_3.index t (0 : Fin 2) * 1 + 1 * (j 0).val = (j 0).val; omega
  | ⟨1, _⟩ => show win0_3.index t (1 : Fin 2) * 256 + 1 * (j 1).val = (j 1).val; omega

theorem iblk4_eq (c : Dev nD) (t : Fin cfg0.N) : iblk m c 4 t = V m c main_v8 := by
  obtain ⟨-, -, -, -, -, -, -, -, -, e0, e1, -⟩ := idx_facts t
  funext j
  show V m c main_v8 (((cfg0.win 4).blk t).view.emb j) = _
  congr 1
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem iblk5_eq (c : Dev nD) (t : Fin cfg0.N) : iblk m c 5 t = V m c main_v9 := by
  obtain ⟨-, -, -, -, -, -, -, -, -, -, -, e0, e1, -⟩ := idx_facts t
  funext j
  show V m c main_v9 (((cfg0.win 5).blk t).view.emb j) = _
  congr 1
  funext a; apply Fin.ext
  match a with
  | ⟨0, _⟩ => show win0_5.index t (0 : Fin 2) * 1 + 1 * (j 0).val = (j 0).val; omega
  | ⟨1, _⟩ => show win0_5.index t (1 : Fin 2) * 1 + 1 * (j 1).val = (j 1).val; omega

/-! ## What point `t` writes -/

theorem t_lt (t : Fin cfg0.N) : t.val < 8 := by
  have h : t.val < grid0.N := t.isLt
  rw [N_0] at h
  exact h

/-- The score array of the argument arrays. -/
abbrev scoreOf (c : Dev nD) : S8x16384.Idx → EReal :=
  Cert.EdgeScore.score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Columns `t·2048 …` of the score array, as a block `[8, 2048]`. -/
def tile (c : Dev nD) (t : Fin cfg0.N) : S8x2048.Idx → EReal := fun y =>
  scoreOf m c (ix2 (⟨(y 0).val, idx2_lt0 y⟩ : Fin 8)
    (⟨t.val * 2048 + (y 1).val, by have := t_lt t; have := idx2_lt1 y; omega⟩ : Fin 16384))

/-- Row `b` of the body's stores at point `t`, at its place in the block: the tile's entry. -/
theorem piece_row (c : Dev nD) (t : Fin cfg0.N) (hr : InRange (m ((c : Thread nD τ).loc main_arg5))) (b : ℕ) (hb : b < 8)
    (hs : S8x512x256.Slices ![b, 0, 0] S1x512x256)
    (inb : ∀ a, (![b, 0] : Fin 2 → ℕ) a + S1x2048.size a ≤ S8x2048.size a) (x : S1x2048.Idx) :
    finish (k0_pay10 (iblk m c 5 t)) (rowLogit b hs (k0_pay4 (iblk m c 0 t)) (k0_pay5 (iblk m c 0 t)) (k0_pay6 (iblk m c 1 t))
        (k0_pay7 (iblk m c 2 t)) (k0_pay8 (iblk m c 3 t)) (k0_pay9 (iblk m c 4 t))) x
      = tile m c t ((Rect.unit (s := S8x2048) ![b, 0] S1x2048.size inb).emb x) := by
  obtain ⟨u, r, rfl⟩ : ∃ (u : Fin 1) (r : Fin 2048), x = ix2 u r := ⟨x 0, x 1, eq_ix2 x⟩
  obtain rfl : u = 0 := Subsingleton.elim _ _
  have ht := t_lt t
  let e : Fin 16384 := ⟨t.val * 2048 + r.val, by omega⟩
  refine (row_score (⟨b, hb⟩ : Fin 8) hs (iblk m c 0 t) (iblk m c 1 t) (iblk m c 2 t) (iblk m c 3 t) (iblk m c 4 t) (iblk m c 5 t)
    (m ((c : Thread nD τ).loc main_arg2)) (m ((c : Thread nD τ).loc main_arg3)) (m ((c : Thread nD τ).loc main_arg4))
    (m ((c : Thread nD τ).loc main_arg5)) hr r e
    (fun k => (iblk0_apply m c t r k e rfl).trans (V_v6_apply m c e k))
    (fun h => by rw [iblk3_eq]; exact V_v7_apply m c h)
    (fun h => by rw [iblk4_eq]; exact V_v8_apply m c h)
    (by rw [iblk5_eq]; exact V_v9_apply m c)).trans ?_
  rw [iblk1_eq, iblk2_eq, V_main_arg0, V_main_arg1]
  unfold tile
  refine congrArg (scoreOf m c) (funext fun a => Fin.ext ?_)
  match a with
  | ⟨0, _⟩ => show b = b + 1 * 0; omega
  | ⟨1, _⟩ => show t.val * 2048 + r.val = t.val * 2048 + (0 + 1 * r.val); omega

theorem ld0 (c : Dev nD) (t : Fin cfg0.N) : View.ld (iblk m c 0 t) r0_0 = iblk m c 0 t := View.ld_unit_zero hz2 _ _
theorem ld1 (c : Dev nD) (t : Fin cfg0.N) : View.ld (iblk m c 1 t) r0_1 = iblk m c 1 t := View.ld_unit_zero hz3 _ _
theorem ld2 (c : Dev nD) (t : Fin cfg0.N) : View.ld (iblk m c 2 t) r0_2 = iblk m c 2 t := View.ld_unit_zero hz2 _ _
theorem ld3 (c : Dev nD) (t : Fin cfg0.N) : View.ld (iblk m c 3 t) r0_3 = iblk m c 3 t := View.ld_unit_zero hz2 _ _
theorem ld4 (c : Dev nD) (t : Fin cfg0.N) : View.ld (iblk m c 4 t) r0_3 = iblk m c 4 t := View.ld_unit_zero hz2 _ _
theorem ld5 (c : Dev nD) (t : Fin cfg0.N) : View.ld (iblk m c 5 t) r0_4 = iblk m c 5 t := View.ld_unit_zero hz2 _ _

set_option maxHeartbeats 1600000 in
/-- THE BLOCK POINT `t` LEAVES is the tile: each of the eight stored rows is the tile's row. -/
theorem out_eq (c : Dev nD) (t : Fin cfg0.N) (hr : InRange (m ((c : Thread nD τ).loc main_arg5))) :
    out0_6 (iblk m c 0 t) (iblk m c 1 t) (iblk m c 2 t) (iblk m c 3 t) (iblk m c 4 t) (iblk m c 5 t) = tile m c t := by
  funext y
  unfold out0_6
  simp only [ld0, ld1, ld2, ld3, ld4, ld5]
  refine View.canon_apply_of_pieces (Val := Elt Ideal) (S := S8x2048) (e := .f32) (tile m c t : S8x2048.Idx → Elt Ideal .f32) _ ?_ y
    (cover0_6 _ _ _ _ _ _ _ _ y)
  intro p hp x
  simp only [List.mem_cons, List.mem_nil_iff, or_false] at hp
  rcases hp with rfl | rfl | rfl | rfl | rfl | rfl | rfl | rfl
  · rw [pay2_eq]; exact piece_row m c t hr 7 (by omega) slices_S8x512x256_o7_0_0_S1x512x256 inb_S8x2048_S1x2048_7_0 x
  · rw [pay1_eq, pay20_eq]; exact piece_row m c t hr 6 (by omega) slices_S8x512x256_o6_0_0_S1x512x256 inb_S8x2048_S1x2048_6_0 x
  · rw [pay19_eq]; exact piece_row m c t hr 5 (by omega) slices_S8x512x256_o5_0_0_S1x512x256 inb_S8x2048_S1x2048_5_0 x
  · rw [pay18_eq, pay17_eq]; exact piece_row m c t hr 4 (by omega) slices_S8x512x256_o4_0_0_S1x512x256 inb_S8x2048_S1x2048_4_0 x
  · rw [pay16_eq]; exact piece_row m c t hr 3 (by omega) slices_S8x512x256_o3_0_0_S1x512x256 inb_S8x2048_S1x2048_3_0 x
  · rw [pay15_eq, pay14_eq]; exact piece_row m c t hr 2 (by omega) slices_S8x512x256_o2_0_0_S1x512x256 inb_S8x2048_S1x2048_2_0 x
  · rw [pay13_eq]; exact piece_row m c t hr 1 (by omega) slices_S8x512x256_o1_0_0_S1x512x256 inb_S8x2048_S1x2048_1_0 x
  · rw [pay12_eq, pay11_eq]; exact piece_row m c t hr 0 (by omega) slices_S8x512x256_o0_0_0_S1x512x256 inb_S8x2048_S1x2048_0_0 x

/-! ## The whole array -/

/-- WHAT POINT `t` WRITES BACK is block `t` of the score array. -/
theorem flushed_eq (c : Dev nD) (t : Fin cfg0.N) (hr : InRange (m ((c : Thread nD τ).loc main_arg5))) :
    (dats m 0 c).flushed 6 t = ((cfg0.win 6).blk t).view.read (Elt Ideal) (scoreOf m c) := by
  show (cfg0.win 6).cut (grid0.coords t) ((dats m 0 c).after 6 t) = _
  rw [after0_6, out_eq m c t hr]
  obtain ⟨-, -, -, -, -, -, -, -, -, -, -, -, -, e0, e1, -⟩ := idx_facts t
  funext j
  show tile m c t j = scoreOf m c (((cfg0.win 6).blk t).view.emb j)
  unfold tile
  refine congrArg (scoreOf m c) (funext fun a => Fin.ext ?_)
  match a with
  | ⟨0, _⟩ => show (j 0).val = win0_6.index t (0 : Fin 2) * 8 + 1 * (j 0).val; omega
  | ⟨1, _⟩ => show t.val * 2048 + (j 1).val = win0_6.index t (1 : Fin 2) * 2048 + 1 * (j 1).val; omega

/-- An index of the output is in point `t`'s block iff each coordinate is in the block's range on its axis. -/
theorem mem_blk (t : Fin cfg0.N) (i : S8x16384.Idx) :
    i ∈ ((cfg0.win 6).blk t).view.set ↔ ∀ a : Fin 2, win0_6.index t a * S8x2048.size a ≤ (i a).val
      ∧ (i a).val < win0_6.index t a * S8x2048.size a + S8x2048.size a := by
  show i ∈ ((View.whole main_v10).slice (win0_6.rect t)).set ↔ _
  rw [View.set_slice_whole, Rect.mem_set_unit]
  exact Iff.rfl

/-- Every index of the output is in the block of the point that covers its column. -/
theorem cover (i : S8x16384.Idx) : ∃ t : Fin cfg0.N, (cfg0.win 6).flush t = true ∧ i ∈ ((cfg0.win 6).blk t).view.set := by
  have hi0 := idx2_lt0 i
  have hi1 := idx2_lt1 i
  let t : Fin cfg0.N := ⟨(i 1).val / 2048, by show _ < grid0.N; rw [N_0]; omega⟩
  have htv : t.val = (i 1).val / 2048 := rfl
  refine ⟨t, flush0_6 t, ?_⟩
  rw [mem_blk]
  obtain ⟨-, -, -, -, -, -, -, -, -, -, -, -, -, e0, e1, -⟩ := idx_facts t
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 2048 ≤ (i 1).val ∧ (i 1).val < win0_6.index t (1 : Fin 2) * 2048 + 2048; omega

/-- THE OUTPUT ARRAY after the run is the score array. -/
theorem final (c : Dev nD) (hr : InRange (m ((c : Thread nD τ).loc main_arg5))) :
    (dats m 0 c).arrAt 6 cfg0.N = scoreOf m c :=
  (dats m 0 c).arrAt_eq_of_cover 6 (scoreOf m c) (fun t _ => flushed_eq m c t hr) cover

end Cert.KernelIdeal.Block

end
-- ==== Proof.KernelTail.lean ====
/-
  The host's last step: the scores placed into a zero array.

  After the region the host forms, for each edge, the pair (source, destination) of its endpoint words with a negative word
  moved up by 512, and writes the edge's eight scores at that pair of positions of an `[8, 512, 512]` array of zeros.
  `place` is that step as a function of the edge array and of the score array the region left.
-/
import proofs.«429026_j72756745994823_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

variable {F : FTy → Type} [FloatOps F]

/-- Row `k` of the edge array, as a vector of 16384 words. -/
def endpoints0 (x5 : IVec S2x16384 32) : IVec S16384 32 :=
  shapeCast S16384 (extractStridedSlice S1x16384 ![0, 0] x5 slices_S2x16384_S1x16384_0_0) shapeCasts_S1x16384_S16384
def endpoints1 (x5 : IVec S2x16384 32) : IVec S16384 32 :=
  shapeCast S16384 (extractStridedSlice S1x16384 ![1, 0] x5 slices_S2x16384_S1x16384_1_0) shapeCasts_S1x16384_S16384

/-- The scores `u` written into zeros at the (wrapped) endpoint pairs. -/
def place (x5 : IVec S2x16384 32) (u : S8x16384.Idx → Elt F .f32) : S8x512x512.Idx → Elt F .f32 :=
  Host.scatter scatter_S8x512x512_S16384x2_S8x16384_0_12_12_1 (fun _ b => b)
    (broadcastInDim S8x512x512 ![] bcast_S_S8x512x512 (constant S_ .f32 0x00000000#32))
    (concatenate S16384x2 1
      [⟨S16384x1, broadcastInDim S16384x1 ![0] bcast_S16384_S16384x1_0
          (select (cmpi .slt (endpoints0 x5) (broadcastInDim S16384 ![] bcast_S_S16384 (constantI S_ 32 0#32)))
            (addi (endpoints0 x5) (broadcastInDim S16384 ![] bcast_S_S16384 (constantI S_ 32 512#32))) (endpoints0 x5))⟩,
       ⟨S16384x1, broadcastInDim S16384x1 ![0] bcast_S16384_S16384x1_0
          (select (cmpi .slt (endpoints1 x5) (broadcastInDim S16384 ![] bcast_S_S16384 (constantI S_ 32 0#32)))
            (addi (endpoints1 x5) (broadcastInDim S16384 ![] bcast_S_S16384 (constantI S_ 32 512#32))) (endpoints1 x5))⟩]
      concatenates_S16384x1_S16384x1_S16384x2_d1)
    u

variable (m : (ℓ : Loc nD τ sig) → Buf (Elt F) ℓ)

theorem V_v1 (c : Dev nD) : (V m c main_v1 : S16384.Idx → BitVec 32) = endpoints0 (m ((c : Thread nD τ).loc main_arg5)) := by
  show StableHlo.after hostOps0 (fun b => m (c, b)) (Proc.devRef .tc main_v1) = _
  after_results
  rfl

theorem V_v3 (c : Dev nD) : (V m c main_v3 : S16384.Idx → BitVec 32) = endpoints1 (m ((c : Thread nD τ).loc main_arg5)) := by
  show StableHlo.after hostOps0 (fun b => m (c, b)) (Proc.devRef .tc main_v3) = _
  after_results
  rfl

set_option maxHeartbeats 2000000 in
/-- What the lines after the region leave in the result: `place` of the edge array and of the output array as the region left it. -/
theorem tail_eq (c : Dev nD) :
    Pipeline.afterTail₀ cfgs (dats m) 0 (V0 m) [hostOps1] c main_v25
      = place (m ((c : Thread nD τ).loc main_arg5)) ((dats m 0 c).arrAt 6 cfg0.N) := by
  unfold Pipeline.afterTail₀
  simp only [List.flatten_cons, List.flatten_nil, List.append_nil]
  after_results
  have h10 : Pipeline.withArrays (cfgs 0).spec c (V0 m c) (fun w => (dats m 0 c).arrAt w (cfgs 0).N) (Proc.devRef .tc main_v10)
      = (dats m 0 c).arrAt 6 cfg0.N := Pipeline.withArrays_arr spec0 launch0.win.arr_inj c _ _ 6
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  rw [h10, h1, h3, V_v1, V_v3]
  rfl

end Cert.KernelIdeal.Tail

end
-- ==== Proof.KernelRun.lean ====
/-
  The idealized kernel's run, with its result named.

  Every weakly fair execution ends with the result array holding the scores of the argument arrays placed into zeros at the
  endpoint pairs, and the arguments as they were: the region leaves the score array in its output (the blocks tile it), and the
  lines after the region place it.
-/
import proofs.«429026_j72756745994823_1_alg».proof.Proof.KernelBlock
import proofs.«429026_j72756745994823_1_alg».proof.Proof.KernelTail

noncomputable section

namespace Cert.KernelIdeal.Run

open Idealize.ShloMosaic Idealize.ShloMosaic.TcCoe Idealize.SL.Sem
open Cert.KernelIdeal Cert.KernelIdeal.Gen Cert.KernelIdeal.Block Cert.KernelIdeal.Tail
open Cert.EdgeScore (InRange)

variable (m : (ℓ : Loc nD τ sig) → Buf (Elt Ideal) ℓ) (ρ : Dev nD → PrngReg)

/-- The kernel's result, as a function of the arguments. -/
abbrev result (c : Dev nD) : Buf (Elt Ideal) ((c.tc : Thread nD τ).loc main_v25) :=
  place (m ((c : Thread nD τ).loc main_arg5)) (scoreOf m c)

theorem kernel_run (hr : ∀ c : Dev nD, InRange (m ((c : Thread nD τ).loc main_arg5))) :
    θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v25 (Pipeline.mem_restRefs_of main_v25 (by decide) (by decide))).trans (tail_eq m c)).trans
        (congrArg (place (m ((c : Thread nD τ).loc main_arg5))) (final m c (hr c))),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Run

end
-- ==== Proof.RefScore.lean ====
/-
  The reference program's score stage is the edge score.

  The stage is read one operation at a time, outermost first: the reshape, the quotient 1 / (1 + exp (-x)), the affine
  output stage (a contraction over the 256 hidden units plus its bias), the rectified affine hidden stage (a contraction
  over the 512 pair-row entries plus its bias), the pair row (two gathered node rows joined along the feature axis), and
  the two start words. A start word in `[0, 512)` passes the negative-index wrap unchanged, and the gather's clamp of a
  start word is the node that word names.
-/
import proofs.«429026_j72756745994823_1_alg».proof.Proof.Gen.ReferenceIdeal.Read
import proofs.«429026_j72756745994823_1_alg».proof.Proof.Spec
import Idealize.ShloMosaic.Lib.IdealHost
import Idealize.ShloMosaic.Lib.ValueIdx
import Idealize.ShloMosaic.Lib.Pipeline.Value

noncomputable section

open scoped BigOperators

namespace Cert.EdgeScore

open Idealize.ShloMosaic Idealize.ShloMosaic.ValueIdx Cert.ReferenceIdeal Cert.ReferenceIdeal.Read

variable [Cert.ReferenceIdeal.Facts]

/-! ## The gather of node rows, read at coordinates -/

/-- Operand axis 0 of the gather's read: not named by the start index map, not a batching axis, the first offset axis —
    the result's coordinate on axis 0. -/
theorem gather_axis0 {w : Nat} (j : S8x16384x256.Idx) (idx : IVec S16384x1 w) :
    (gather_S8x512x256_S16384x1_S8x16384x256_02_1_n_n_1_1_81256.operandIdx j idx 0).val = (j 0).val := by
  show gather_S8x512x256_S16384x1_S8x16384x256_02_1_n_n_1_1_81256.start j idx 0 + gather_S8x512x256_S16384x1_S8x16384x256_02_1_n_n_1_1_81256.batchCoord j 0 + gather_S8x512x256_S16384x1_S8x16384x256_02_1_n_n_1_1_81256.offCoord j 0 = _
  rw [GatherDims.batchCoord_eq_zero _ _ _ List.not_mem_nil]
  unfold GatherDims.start GatherDims.offCoord
  rw [dif_neg (show ¬(0 : Fin S8x512x256.rank) ∈ gather_S8x512x256_S16384x1_S8x16384x256_02_1_n_n_1_1_81256.startIndexMap by decide),
    dif_pos (show (0 : Fin S8x512x256.rank) ∈ gather_S8x512x256_S16384x1_S8x16384x256_02_1_n_n_1_1_81256.sKept by decide)]
  show 0 + 0 + (j 0).val = (j 0).val
  omega

/-- Operand axis 2 of the gather's read: the second offset axis — the result's coordinate on axis 2. -/
theorem gather_axis2 {w : Nat} (j : S8x16384x256.Idx) (idx : IVec S16384x1 w) :
    (gather_S8x512x256_S16384x1_S8x16384x256_02_1_n_n_1_1_81256.operandIdx j idx 2).val = (j 2).val := by
  show gather_S8x512x256_S16384x1_S8x16384x256_02_1_n_n_1_1_81256.start j idx 2 + gather_S8x512x256_S16384x1_S8x16384x256_02_1_n_n_1_1_81256.batchCoord j 2 + gather_S8x512x256_S16384x1_S8x16384x256_02_1_n_n_1_1_81256.offCoord j 2 = _
  rw [GatherDims.batchCoord_eq_zero _ _ _ List.not_mem_nil]
  unfold GatherDims.start GatherDims.offCoord
  rw [dif_neg (show ¬(2 : Fin S8x512x256.rank) ∈ gather_S8x512x256_S16384x1_S8x16384x256_02_1_n_n_1_1_81256.startIndexMap by decide),
    dif_pos (show (2 : Fin S8x512x256.rank) ∈ gather_S8x512x256_S16384x1_S8x16384x256_02_1_n_n_1_1_81256.sKept by decide)]
  show 0 + 0 + (j 2).val = (j 2).val
  omega

/-- Operand axis 1 of the gather's read: the collapsed axis the start index names — the start word of the result's
    batch coordinate (its axis 1), read signed and clamped into `[0, 511]`. -/
theorem gather_axis1 {w : Nat} (j : S8x16384x256.Idx) (idx : IVec S16384x1 w) :
    (gather_S8x512x256_S16384x1_S8x16384x256_02_1_n_n_1_1_81256.operandIdx j idx 1).val
      = min (idx (ix2 (⟨(j 1).val, (j 1).isLt⟩ : Fin 16384) (0 : Fin 1))).toInt.toNat (512 - 1) := by
  show gather_S8x512x256_S16384x1_S8x16384x256_02_1_n_n_1_1_81256.start j idx 1 + gather_S8x512x256_S16384x1_S8x16384x256_02_1_n_n_1_1_81256.batchCoord j 1 + gather_S8x512x256_S16384x1_S8x16384x256_02_1_n_n_1_1_81256.offCoord j 1 = _
  rw [GatherDims.batchCoord_eq_zero _ _ _ List.not_mem_nil,
    GatherDims.offCoord_eq_zero _ _ _ (show ¬(1 : Fin S8x512x256.rank) ∈ gather_S8x512x256_S16384x1_S8x16384x256_02_1_n_n_1_1_81256.sKept by decide)]
  unfold GatherDims.start
  rw [dif_pos (show (1 : Fin S8x512x256.rank) ∈ gather_S8x512x256_S16384x1_S8x16384x256_02_1_n_n_1_1_81256.startIndexMap by decide)]
  have hsi : gather_S8x512x256_S16384x1_S8x16384x256_02_1_n_n_1_1_81256.siIdx j ⟨List.idxOf (1 : Fin S8x512x256.rank) gather_S8x512x256_S16384x1_S8x16384x256_02_1_n_n_1_1_81256.startIndexMap,
      List.idxOf_lt_length_iff.2 (show (1 : Fin S8x512x256.rank) ∈ gather_S8x512x256_S16384x1_S8x16384x256_02_1_n_n_1_1_81256.startIndexMap by decide)⟩
      = ix2 (⟨(j 1).val, (j 1).isLt⟩ : Fin 16384) (0 : Fin 1) := by
    funext b; refine Fin.ext ?_
    match b with
    | ⟨0, _⟩ => rfl
    | ⟨1, _⟩ => rfl
  rw [hsi]
  rfl

/-- The gather read at `(b, e, f)`: the operand at `(b, n, f)`, `n` the node the start word of edge `e` names. -/
theorem gather_rows_apply {α : Type} (x : S8x512x256.Idx → α) (idx : IVec S16384x1 32) (b : Fin 8) (e : Fin 16384)
    (f : Fin 256) :
    Host.gather gather_S8x512x256_S16384x1_S8x16384x256_02_1_n_n_1_1_81256 x idx (ix3 b e f) = x (ix3 b (node (idx (ix2 e (0 : Fin 1)))) f) := by
  unfold Host.gather
  congr 1
  funext a
  refine Fin.ext ?_
  match a with
  | ⟨0, _⟩ => exact gather_axis0 _ _
  | ⟨1, _⟩ => exact gather_axis1 _ _
  | ⟨2, _⟩ => exact gather_axis2 _ _

/-! ## The start words: a word in range passes the negative-index wrap unchanged -/

/-- A word whose signed value is not negative is not signed-less than zero. -/
theorem cmpi_slt_zero_of_nonneg {w : BitVec 32} (h : 0 ≤ w.toInt) : IntOp.cmpi .slt w 0#32 = 0#1 := by
  have hs : w.slt 0#32 = false := by
    rw [BitVec.slt_eq_decide, BitVec.toInt_zero, decide_eq_false_iff_not]
    omega
  show BitVec.ofBool (w.slt 0#32) = 0#1
  rw [hs]
  rfl

/-- Row 0 of the edge array, flattened, at edge `e`. -/
theorem v1_at (x5 : (⟨S2x16384, .i32⟩ : BufTy).Contents (Elt Ideal)) (e : Fin 16384) :
    val_main_v1 (F := Ideal) x5 (ix1 e) = x5 (ix2 (0 : Fin 2) e) := by
  rw [val_main_v1_apply, val_main_v0_apply]
  congr 1
  funext a; refine Fin.ext ?_
  match a with
  | ⟨0, _⟩ => rfl
  | ⟨1, _⟩ => exact Nat.mod_eq_of_lt e.isLt

/-- Row 1 of the edge array, flattened, at edge `e`. -/
theorem v3_at (x5 : (⟨S2x16384, .i32⟩ : BufTy).Contents (Elt Ideal)) (e : Fin 16384) :
    val_main_v3 (F := Ideal) x5 (ix1 e) = x5 (ix2 (1 : Fin 2) e) := by
  rw [val_main_v3_apply, val_main_v2_apply]
  congr 1
  funext a; refine Fin.ext ?_
  match a with
  | ⟨0, _⟩ => rfl
  | ⟨1, _⟩ => exact Nat.mod_eq_of_lt e.isLt

/-- The source start word of edge `e`: under the range hypothesis, the edge array's entry `(0, e)`. -/
theorem v9_at (x5 : (⟨S2x16384, .i32⟩ : BufTy).Contents (Elt Ideal)) (hr : InRange x5) (e : Fin 16384) :
    val_main_v9 (F := Ideal) x5 (ix2 e (0 : Fin 1)) = x5 (ix2 (0 : Fin 2) e) := by
  rw [val_main_v9_apply, val_main_v8_apply, val_main_v5_apply, val_main_v4_apply, val_main_c_apply]
  have hi : idx_main_v9 (ix2 e (0 : Fin 1)) = ix1 e := by
    funext a; match a with | ⟨0, _⟩ => rfl
  rw [hi, v1_at, cmpi_slt_zero_of_nonneg (hr _).1, select_zero]

/-- The destination start word of edge `e`: under the range hypothesis, the edge array's entry `(1, e)`. -/
theorem v16_at (x5 : (⟨S2x16384, .i32⟩ : BufTy).Contents (Elt Ideal)) (hr : InRange x5) (e : Fin 16384) :
    val_main_v16 (F := Ideal) x5 (ix2 e (0 : Fin 1)) = x5 (ix2 (1 : Fin 2) e) := by
  rw [val_main_v16_apply, val_main_v15_apply, val_main_v12_apply, val_main_v11_apply, val_main_c_1_apply]
  have hi : idx_main_v16 (ix2 e (0 : Fin 1)) = ix1 e := by
    funext a; match a with | ⟨0, _⟩ => rfl
  rw [hi, v3_at, cmpi_slt_zero_of_nonneg (hr _).1, select_zero]

/-! ## The pair row: the two gathered rows joined along the feature axis -/

/-- The joined array at `(b, e, f)` is the specification's pair row entry. -/
theorem v18_at (x0 : (⟨S8x512x256, .f32⟩ : BufTy).Contents (Elt Ideal)) (x5 : (⟨S2x16384, .i32⟩ : BufTy).Contents (Elt Ideal))
    (hr : InRange x5) (b : Fin 8) (e : Fin 16384) (f : Fin 512) :
    val_main_v18 (F := Ideal) x0 x5 (ix3 b e f) = pairAt x0 x5 b e f := by
  unfold val_main_v18 pairAt
  by_cases h : f.val < 256
  · rw [dif_pos h]
    rw [concatenate_pair_apply_left (s₁ := S8x16384x256) (s₂ := S8x16384x256) (2 : Fin S8x16384x512.rank) _ _ _ (ix3 b e f) rfl
      (ix3 b e (⟨f.val, h⟩ : Fin 256))
      (fun a => match a with | ⟨0, _⟩ => rfl | ⟨1, _⟩ => rfl | ⟨2, _⟩ => rfl)]
    unfold val_main_v10
    rw [gather_rows_apply, v9_at x5 hr]
  · rw [dif_neg h]
    rw [concatenate_pair_apply_right (s₁ := S8x16384x256) (s₂ := S8x16384x256) (2 : Fin S8x16384x512.rank) _ _ _ (ix3 b e f) rfl rfl
      (ix3 b e (⟨f.val - 256, by have := f.isLt; omega⟩ : Fin 256))
      (fun a => match a with
        | ⟨0, _⟩ => fun _ => rfl
        | ⟨1, _⟩ => fun _ => rfl
        | ⟨2, _⟩ => fun hne => absurd rfl hne)
      (by show f.val - 256 + 256 = f.val; omega)]
    unfold val_main_v17
    rw [gather_rows_apply, v16_at x5 hr]

/-! ## The hidden activation, the logit, the score -/

/-- The rectified affine stage at `(b, e, h)` is the specification's hidden unit. -/
theorem v23_at (x0 : (⟨S8x512x256, .f32⟩ : BufTy).Contents (Elt Ideal)) (x1 : (⟨S512x256, .f32⟩ : BufTy).Contents (Elt Ideal))
    (x2 : (⟨S256, .f32⟩ : BufTy).Contents (Elt Ideal)) (x5 : (⟨S2x16384, .i32⟩ : BufTy).Contents (Elt Ideal)) (hr : InRange x5)
    (b : Fin 8) (e : Fin 16384) (h : Fin 256) :
    val_main_v23 (F := Ideal) x0 x1 x2 x5 (ix3 b e h) = hidden x0 x1 x2 x5 b e h := by
  rw [val_main_v23_apply, val_main_call0_v0_apply, val_main_call0_cst_apply, val_main_v22_apply, val_main_v21_apply,
    val_main_v20_apply, val_main_v19_apply]
  have hb : idx_main_v20 (idx_main_v21 (ix3 b e h)) = ix1 h := by
    funext a; match a with | ⟨0, _⟩ => rfl
  have hs : ∀ k : Fin 512, val_main_v18 (F := Ideal) x0 x5 (lidx_main_v19 (ix3 b e h) k) * x1 (ridx_main_v19 (ix3 b e h) k)
      = pairAt x0 x5 b e k * x1 (ix2 k h) := fun k => by
    have hl : lidx_main_v19 (ix3 b e h) k = ix3 b e k := by
      funext a; match a with | ⟨0, _⟩ => rfl | ⟨1, _⟩ => rfl | ⟨2, _⟩ => rfl
    have hrr : ridx_main_v19 (ix3 b e h) k = ix2 k h := by
      funext a; match a with | ⟨0, _⟩ => rfl | ⟨1, _⟩ => rfl
    rw [hl, hrr, v18_at x0 x5 hr]
  rw [hb, Finset.sum_congr rfl (fun k _ => hs k)]
  rfl

/-- The affine output stage at `(b, e, 0)` is the specification's logit. -/
theorem v27_at (x0 : (⟨S8x512x256, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (x4 : (⟨S1, .f32⟩ : BufTy).Contents (Elt Ideal)) (x5 : (⟨S2x16384, .i32⟩ : BufTy).Contents (Elt Ideal)) (hr : InRange x5)
    (b : Fin 8) (e : Fin 16384) :
    val_main_v27 (F := Ideal) x0 x1 x2 x3 x4 x5 (ix3 b e (0 : Fin 1)) = logit x0 x1 x2 x3 x4 x5 b e := by
  rw [val_main_v27_apply, val_main_v26_apply, val_main_v25_apply, val_main_v24_apply]
  have hb : idx_main_v25 (idx_main_v26 (ix3 b e (0 : Fin 1))) = ix1 (0 : Fin 1) := by
    funext a; match a with | ⟨0, _⟩ => rfl
  have hs : ∀ k : Fin 256, val_main_v23 (F := Ideal) x0 x1 x2 x5 (lidx_main_v24 (ix3 b e (0 : Fin 1)) k)
        * x3 (ridx_main_v24 (ix3 b e (0 : Fin 1)) k)
      = hidden x0 x1 x2 x5 b e k * x3 (ix2 k (0 : Fin 1)) := fun k => by
    have hl : lidx_main_v24 (ix3 b e (0 : Fin 1)) k = ix3 b e k := by
      funext a; match a with | ⟨0, _⟩ => rfl | ⟨1, _⟩ => rfl | ⟨2, _⟩ => rfl
    have hrr : ridx_main_v24 (ix3 b e (0 : Fin 1)) k = ix2 k (0 : Fin 1) := by
      funext a; match a with | ⟨0, _⟩ => rfl | ⟨1, _⟩ => rfl
    rw [hl, hrr, v23_at x0 x1 x2 x5 hr]
  rw [hb, Finset.sum_congr rfl (fun k _ => hs k)]
  rfl

/-- Under the index-range hypothesis the reference's score stage is the specification's score array. -/
theorem ref_score (x0 : (⟨S8x512x256, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (x4 : (⟨S1, .f32⟩ : BufTy).Contents (Elt Ideal)) (x5 : (⟨S2x16384, .i32⟩ : BufTy).Contents (Elt Ideal)) (hr : InRange x5) :
    val_main_v34 (F := Ideal) x0 x1 x2 x3 x4 x5 = score x0 x1 x2 x3 x4 x5 := by
  funext j
  obtain ⟨b, e, rfl⟩ : ∃ (b : Fin 8) (e : Fin 16384), j = ix2 b e := ⟨j 0, j 1, eq_ix2 j⟩
  rw [score_ix2]
  rw [val_main_v34_apply, val_main_v33_apply, val_main_v32_apply, val_main_cst_3_apply, val_main_v31_apply,
    val_main_v30_apply, val_main_cst_apply, val_main_v29_apply, val_main_v28_apply]
  have hi : idx_main_v34 (ix2 b e) = ix3 b e (0 : Fin 1) := by
    funext a; refine Fin.ext ?_
    match a with
    | ⟨0, _⟩ => show (b.val * 16384 + e.val) / 16384 = b.val; have := e.isLt; omega
    | ⟨1, _⟩ => show (b.val * 16384 + e.val) / 1 % 16384 = e.val; have := e.isLt; omega
    | ⟨2, _⟩ => rfl
  rw [hi, v27_at x0 x1 x2 x3 x4 x5 hr]
  show FloatOps.hostDivf (Ideal.ofBits .f32 0x3F800000#32)
    (FloatOps.addf (Ideal.ofBits .f32 0x3F800000#32) (FloatOps.hostUnary .exp (FloatOps.hostNegf (logit x0 x1 x2 x3 x4 x5 b e)))) = _
  rw [Ideal.ofBits_one_f32]
  rfl

end Cert.EdgeScore

end
-- ==== Proof.PreRange.lean ====
/-
  The index range read back from the precondition.

  The precondition is a conjunction of six tests, each a reduction by `and` of an array of one-bit words to a single
  word; the last one tests every entry `w` of the edge array for `0 ≤ w` and `w < 512` as signed words.  When the
  conjunction is the word 1, its last conjunct is 1; a reduction by `and` that came out 1 met only 1s; and a signed
  comparison that is 1 says the inequality of the signed readings.
-/
import proofs.«429026_j72756745994823_1_alg».proof.Pre_finite_inputs
import proofs.«429026_j72756745994823_1_alg».proof.Proof.Spec
import Idealize.ShloMosaic.Lib.ReduceAll
import Idealize.ShloMosaic.Lib.StableHlo.Predicate
import Idealize.ShloMosaic.Lib.IdealHost

noncomputable section

namespace Cert.EdgeScore

open Idealize.ShloMosaic

/-- The precondition being the word 1 gives every index word of the edge array in `[0, 512)`. -/
theorem inRange_of_pre [Cert.Pre_finite_inputs.Facts] {F : FTy → Type} [FloatOps F]
    (a0 : FVec F Cert.Pre_finite_inputs.S8x512x256 .f32) (a1 : FVec F Cert.Pre_finite_inputs.S512x256 .f32)
    (a2 : FVec F Cert.Pre_finite_inputs.S256 .f32) (a3 : FVec F Cert.Pre_finite_inputs.S256x1 .f32)
    (a4 : FVec F Cert.Pre_finite_inputs.S1 .f32) (a5 : IVec Cert.Pre_finite_inputs.S2x16384 32)
    (h : Cert.Pre_finite_inputs.fn (F := F) a0 a1 a2 a3 a4 a5 = fun _ => 1#1) : InRange a5 := by
  -- a rank-0 shape has one index
  haveI : Subsingleton Cert.Pre_finite_inputs.S_.Idx := ⟨fun a b => funext fun d => d.elim0⟩
  -- the precondition at its one index, its chain of operations in view
  have h0 := congrFun h ValueIdx.ix0
  dsimp only [Cert.Pre_finite_inputs.fn, Cert.Pre_finite_inputs.fn_part1] at h0
  -- the last conjunct: the reduction of the range test over the whole edge array
  have h1 := (IntOp.andi_eq_one.1 h0).2
  intro i
  -- the range test at entry `i`
  have h2 := Host.reduce_andi_all _ _ _ _ _ h1 i
  obtain ⟨hge, hlt⟩ := IntOp.andi_eq_one.1 h2
  -- the two comparisons against the broadcast scalars, read as signed inequalities
  have hge' : (0#32 : BitVec 32).toInt ≤ (a5 i).toInt := by
    have := IntOp.cmpi_sge.1 hge
    rwa [ValueIdx.broadcastInDim_scalar_apply] at this
  have hlt' : (a5 i).toInt < (512#32 : BitVec 32).toInt := by
    have := IntOp.cmpi_slt.1 hlt
    rwa [ValueIdx.broadcastInDim_scalar_apply] at this
  have e0 : (0#32 : BitVec 32).toInt = 0 := by decide
  have e512 : (512#32 : BitVec 32).toInt = 512 := by decide
  exact ⟨by omega, by omega⟩

end Cert.EdgeScore

end
-- ==== Proof.lean ====
/-
  Edge weights of a graph from pairs of node features: for every batch entry and every edge, the two endpoint nodes' feature
  rows are joined, passed through a two-layer perceptron (rectified hidden layer, logistic output), and the resulting score is
  written at (source, destination) of a zero `[8, 512, 512]` array.

  The kernel gathers a node's feature row as the product of a one-hot row with the feature matrix; the reference indexes the
  feature array. For an endpoint word in `[0, 512)` the one-hot row has its single one at that node, so the product is the
  node's row exactly (no product with an infinity is formed: zero times anything is zero on the extended reals); the
  reference's negative-index adjustment leaves such a word alone and its clamp is the identity. The two layers are the same sums
  on both sides, and the kernel's logistic is the reference's `1 / (1 + exp (-x))`. So both programs leave the same score array
  `[8, 16384]` (`Cert.EdgeScore.score`), and both then place it by the same host step.

  The three frames are the generated ones (the reference's from its generated run); there is nothing to preserve (the
  idealization rewrote no operation).
-/
import proofs.«429026_j72756745994823_1_alg».proof.Defs
import proofs.«429026_j72756745994823_1_alg».proof.Proof.Gen.Kernel
import proofs.«429026_j72756745994823_1_alg».proof.Proof.Gen.Kernel.Skeleton
import proofs.«429026_j72756745994823_1_alg».proof.Proof.Gen.Kernel.Launch
import proofs.«429026_j72756745994823_1_alg».proof.Proof.Gen.Kernel.Points
import proofs.«429026_j72756745994823_1_alg».proof.Proof.Gen.Kernel.Frame
import proofs.«429026_j72756745994823_1_alg».proof.Proof.Gen.KernelIdeal
import proofs.«429026_j72756745994823_1_alg».proof.Proof.Gen.KernelIdeal.Skeleton
import proofs.«429026_j72756745994823_1_alg».proof.Proof.Gen.KernelIdeal.Launch
import proofs.«429026_j72756745994823_1_alg».proof.Proof.Gen.KernelIdeal.Points
import proofs.«429026_j72756745994823_1_alg».proof.Proof.Gen.KernelIdeal.Frame
import proofs.«429026_j72756745994823_1_alg».proof.Proof.Gen.ReferenceIdeal
import proofs.«429026_j72756745994823_1_alg».proof.Proof.Gen.Pre_finite_inputs
import proofs.«429026_j72756745994823_1_alg».proof.Proof.Gen.ReferenceIdeal.Run
import proofs.«429026_j72756745994823_1_alg».proof.Proof.Gen.ReferenceIdeal.Read
import proofs.«429026_j72756745994823_1_alg».proof.Proof.KernelRun
import proofs.«429026_j72756745994823_1_alg».proof.Proof.RefScore
import proofs.«429026_j72756745994823_1_alg».proof.Proof.PreRange
import Idealize.ShloMosaic.Adequacy
import Idealize.ShloMosaic.Init

noncomputable section

namespace Cert.Proof

open Idealize.ShloMosaic Idealize.ShloMosaic.TcCoe Idealize.SL.Sem

/-- The placing step is one function in the two programs: the same scatter of the scores into zeros at the same pairs. -/
theorem place_eq (x5 : IVec Cert.KernelIdeal.S2x16384 32) (u : Cert.KernelIdeal.S8x16384.Idx → EReal) :
    Cert.KernelIdeal.Tail.place (F := Ideal) x5 u
      = Host.scatter Cert.ReferenceIdeal.scatter_S8x512x512_S16384x2_S8x16384_0_12_12_1 (fun _ b => b)
          (Cert.ReferenceIdeal.Read.val_main_v35 (F := Ideal)) (Cert.ReferenceIdeal.Read.val_main_v48 (F := Ideal) x5) u := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every endpoint word in `[0, 512)`, the idealized kernel and the idealized
    reference both end at the scores of the arguments placed into zeros. -/
theorem algebraic : Cert.algebraic_KernelIdeal_ReferenceIdeal := by
  intro m ρ m' ρ' hpre hagree
  have hr : ∀ c : Dev Cert.KernelIdeal.nD,
      Cert.EdgeScore.InRange (m ((c.tc : Thread Cert.KernelIdeal.nD Cert.KernelIdeal.τ).loc Cert.KernelIdeal.main_arg5)) :=
    fun c => Cert.EdgeScore.inRange_of_pre _ _ _ _ _ _ (hpre c)
  refine ⟨Cert.KernelIdeal.Run.result m, Cert.KernelIdeal.Run.kernel_run m ρ hr, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v49_eq, h0, h1, h2, h3, h4, h5]
  unfold Cert.ReferenceIdeal.Read.val_main_v49
  rw [Cert.EdgeScore.ref_score _ _ _ _ _ _ (hr c)]
  exact (place_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
